-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x10 : Shape := ⟨2, ![4194304, 10]⟩
abbrev S4194304 : Shape := ⟨1, ![4194304]⟩
abbrev S_ : Shape := ⟨0, ![]⟩

class Facts : Prop where
  bcast_S_S4194304x10 : S_.BroadcastsInDim S4194304x10 (![] : Fin 0 → Fin S4194304x10.rank)
  reducesTo_S4194304x10_S_d0_1 : S4194304x10.ReducesTo [0, 1] S_
  h_S_ : 0 < S_.numel
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4194304x10 .f32) (main_arg1 : IVec S4194304 32) : IVec S_ 1 :=
  let main_v0 : FVec F S4194304x10 .f32 := Host.absf main_arg0
  let main_cst : FVec F S_ .f32 := constant S_ .f32 0x7F800000#32
  let main_v1 : FVec F S4194304x10 .f32 := broadcastInDim S4194304x10 ![] bcast_S_S4194304x10 main_cst
  let main_v2 : IVec S4194304x10 1 := cmpf .olt main_v0 main_v1
  let main_c : IVec S_ 1 := constantI S_ 1 1#1
  let main_v3 : IVec S_ 1 := (fun x v => Host.reduce IntOp.andi x v reducesTo_S4194304x10_S_d0_1 h_S_) main_v2 main_c
  let main_c_0 : IVec S_ 32 := constantI S_ 32 0#32
  let main_v4 : IVec S4194304 32 := broadcastInDim S4194304 ![] bcast_S_S4194304 main_c_0
  let main_v5 : IVec S4194304 1 := cmpi .sge main_arg1 main_v4
  let main_c_1 : IVec S_ 1 := constantI S_ 1 1#1
  let main_v6 : IVec S_ 1 := (fun x v => Host.reduce IntOp.andi x v reducesTo_S4194304_S_d0 h_S_) main_v5 main_c_1
  let main_v7 : IVec S_ 1 := andi main_v3 main_v6
  main_v7
-- ==== Kernel.lean ====
abbrev S4194304x10 : Shape := ⟨2, ![4194304, 10]⟩
abbrev S4194304 : Shape := ⟨1, ![4194304]⟩
abbrev S10x10 : Shape := ⟨2, ![10, 10]⟩
abbrev S_ : Shape := ⟨0, ![]⟩
abbrev S10x4194304 : Shape := ⟨2, ![10, 4194304]⟩
abbrev S1x4194304 : Shape := ⟨2, ![1, 4194304]⟩
abbrev S2x1x1 : Shape := ⟨3, ![2, 1, 1]⟩
abbrev S10x65536 : Shape := ⟨2, ![10, 65536]⟩
abbrev S1x65536 : Shape := ⟨2, ![1, 65536]⟩
abbrev S1x1x1 : Shape := ⟨3, ![1, 1, 1]⟩
abbrev S65536 : Shape := ⟨1, ![65536]⟩
abbrev S10x1 : Shape := ⟨2, ![10, 1]⟩
abbrev S1x1x65536 : Shape := ⟨3, ![1, 1, 65536]⟩
abbrev S1 : Shape := ⟨1, ![1]⟩

abbrev nBuf : Space → Nat
  | .hbm => 18
  | .vmem => 8
  | .smem => 0
  | _ => 0

abbrev bufTy : (tb : Table) → Fin (tcTables nBuf tb) → BufTy
  | .hbm, ⟨0, _⟩ => ⟨S4194304x10, .f32⟩
  | .hbm, ⟨1, _⟩ => ⟨S4194304, .i32⟩
  | .hbm, ⟨2, _⟩ => ⟨S10x10, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4194304, .i32⟩
  | .hbm, ⟨7, _⟩ => ⟨S4194304, .i32⟩
  | .hbm, ⟨8, _⟩ => ⟨S_, .i32⟩
  | .hbm, ⟨9, _⟩ => ⟨S4194304, .i32⟩
  | .hbm, ⟨10, _⟩ => ⟨S4194304, .i32⟩
  | .hbm, ⟨11, _⟩ => ⟨S10x4194304, .f32⟩
  | .hbm, ⟨12, _⟩ => ⟨S1x4194304, .i32⟩
  | .hbm, ⟨13, _⟩ => ⟨S2x1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S10x65536, .f32⟩
  | .local _ .vmem, ⟨1, _⟩ => ⟨S10x65536, .f32⟩
  | .local _ .vmem, ⟨2, _⟩ => ⟨S1x65536, .i32⟩
  | .local _ .vmem, ⟨3, _⟩ => ⟨S1x65536, .i32⟩
  | .local _ .vmem, ⟨4, _⟩ => ⟨S10x10, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S4194304x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v40 : BitVec 1 := Scalar.cmpi .eq arg1 c31_i32
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4194304 : S_.BroadcastsInDim S4194304 (![] : Fin 0 → Fin S4194304.rank)
  transposes_S4194304x10_S10x4194304_1_0 : S4194304x10.Transposes [1, 0] S10x4194304
  shapeCasts_S4194304_S1x4194304 : S4194304.ShapeCasts S1x4194304
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S10x65536_S10x65536_0_0 : ∀ a, (![0, 0] : Fin 2 → Nat) a + S10x65536.size a ≤ S10x65536.size a
  h_S10x65536 : 0 < S10x65536.numel
  shapeCasts_S10x65536_S10x65536 : S10x65536.ShapeCasts S10x65536
  reduces_S10x65536_S65536 : S10x65536.Reduces [0] S65536
  shapeCasts_S65536_S1x65536 : S65536.ShapeCasts S1x65536
  broadcasts_S1x65536_S10x65536 : S1x65536.Broadcasts S10x65536
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  iota_S10x1_d0_w32 : S10x1.Iotas .tc 32 [0]
  broadcasts_S10x1_S10x65536 : S10x1.Broadcasts S10x65536
  natLt_1_32 : 1 < 32
  inb_S10x10_S10x10_0_0 : ∀ a, (![0, 0] : Fin 2 → Nat) a + S10x10.size a ≤ S10x10.size a
  h_S10x10 : 0 < S10x10.numel
  shapeCasts_S1x65536_S1x1x65536 : S1x65536.ShapeCasts S1x1x65536
  reduces_S1x1x65536_S1 : S1x1x65536.Reduces [1, 2] S1
  shapeCasts_S1_S1x1x1 : S1.ShapeCasts S1x1x1
  inpos_S1x1x1_p0_0_0 : ∀ a, (![0, 0, 0] : Fin 3 → Nat) a < S1x1x1.size a
  reducesTo_S2x1x1_S_d0_1_2 : S2x1x1.ReducesTo [0, 1, 2] S_
  h_S_ : 0 < S_.numel
  dot_S10x10_S10x65536_S10x65536_1_0_0_1_n_n_wf : DotDims.WF S10x10 S10x65536 S10x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x65536.size a ≤ S10x4194304.size a
  hwx0_0 : ∀ i : grid0.Coords, EltTy.bits .f32 = 32 ∨ (Rect.block (s := S10x4194304) S10x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65536.size a ≤ S1x4194304.size a
  hwx0_1 : ∀ i : grid0.Coords, EltTy.bits .i32 = 32 ∨ (Rect.block (s := S1x4194304) S1x65536.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S10x10_S10x65536_S10x65536_1_0_0_1_n_n : DotDims S10x10 S10x65536 S10x65536 where
  lhsContracting := [1]
  rhsContracting := [0]
  lhsNonContracting := [0]
  rhsNonContracting := [1]
  lhsBatch := []
  rhsBatch := []
  wf := dot_S10x10_S10x65536_S10x65536_1_0_0_1_n_n_wf

abbrev win0_0 : Pipeline.Window sig grid0 :=
  Pipeline.Window.ofSpec (Memref.whole main_v1) S10x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4194304x10 : Shape := ⟨2, ![4194304, 10]⟩
abbrev S4194304 : Shape := ⟨1, ![4194304]⟩
abbrev S10x10 : Shape := ⟨2, ![10, 10]⟩
abbrev S_ : Shape := ⟨0, ![]⟩
abbrev S4194304x1 : Shape := ⟨2, ![4194304, 1]⟩

abbrev nBuf : Space → Nat
  | .hbm => 35
  | .vmem => 0
  | .smem => 0
  | _ => 0

abbrev bufTy : (tb : Table) → Fin (tcTables nBuf tb) → BufTy
  | .hbm, ⟨0, _⟩ => ⟨S4194304x10, .f32⟩
  | .hbm, ⟨1, _⟩ => ⟨S4194304, .i32⟩
  | .hbm, ⟨2, _⟩ => ⟨S10x10, .f32⟩
  | .hbm, ⟨3, _⟩ => ⟨S_, .f32⟩
  | .hbm, ⟨4, _⟩ => ⟨S4194304, .f32⟩
  | .hbm, ⟨5, _⟩ => ⟨S_, .f32⟩
  | .hbm, ⟨6, _⟩ => ⟨S4194304, .f32⟩
  | .hbm, ⟨7, _⟩ => ⟨S4194304, .f32⟩
  | .hbm, ⟨8, _⟩ => ⟨S4194304x1, .f32⟩
  | .hbm, ⟨9, _⟩ => ⟨S4194304x10, .f32⟩
  | .hbm, ⟨10, _⟩ => ⟨S4194304x10, .f32⟩
  | .hbm, ⟨11, _⟩ => ⟨S4194304x10, .f32⟩
  | .hbm, ⟨12, _⟩ => ⟨S_, .f32⟩
  | .hbm, ⟨13, _⟩ => ⟨S4194304, .f32⟩
  | .hbm, ⟨14, _⟩ => ⟨S4194304x1, .f32⟩
  | .hbm, ⟨15, _⟩ => ⟨S4194304x1, .f32⟩
  | .hbm, ⟨16, _⟩ => ⟨S4194304x10, .f32⟩
  | .hbm, ⟨17, _⟩ => ⟨S4194304x10, .f32⟩
  | .hbm, ⟨18, _⟩ => ⟨S_, .i32⟩
  | .hbm, ⟨19, _⟩ => ⟨S4194304, .i32⟩
  | .hbm, ⟨20, _⟩ => ⟨S4194304, .i1⟩
  | .hbm, ⟨21, _⟩ => ⟨S_, .i32⟩
  | .hbm, ⟨22, _⟩ => ⟨S4194304, .i32⟩
  | .hbm, ⟨23, _⟩ => ⟨S4194304, .i32⟩
  | .hbm, ⟨24, _⟩ => ⟨S4194304, .i32⟩
  | .hbm, ⟨25, _⟩ => ⟨S4194304x1, .i32⟩
  | .hbm, ⟨26, _⟩ => ⟨S4194304x10, .f32⟩
  | .hbm, ⟨27, _⟩ => ⟨S4194304x10, .f32⟩
  | .hbm, ⟨28, _⟩ => ⟨S_, .f32⟩
  | .hbm, ⟨29, _⟩ => ⟨S4194304, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4194304x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_v12 : Ref sig .tc := ⟨.hbm, 34, rfl⟩

abbrev nD : Nat := 1
abbrev τ : Topo := Topo.v7x

variable {F : FTy → Type} [FloatOps F]

class Facts₀ : Prop where
  reducesTo_S4194304x10_S4194304_d1 : S4194304x10.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x10_0_1 : S4194304x1.BroadcastsInDim S4194304x10 (![0, 1] : Fin 2 → Fin S4194304x10.rank)
  reducesTo_S4194304_S_d0 : S4194304.ReducesTo [0] S_
  gather_S10x10_S4194304x1_S4194304x10_1_0_n_n_0_1_110_wf : GatherDims.WF S10x10 S4194304x1 S4194304x10 [1] [0] [] [0] [] 1 ![1, 10]

variable [Facts₀]

def gather_S10x10_S4194304x1_S4194304x10_1_0_n_n_0_1_110 : GatherDims S10x10 S4194304x1 S4194304x10 where
  offsetDims := [1]
  collapsedSliceDims := [0]
  operandBatchingDims := []
  startIndicesBatchingDims := []
  startIndexMap := [0]
  indexVectorDim := 1
  sliceSizes := ![1, 10]
  wf := gather_S10x10_S4194304x1_S4194304x10_1_0_n_n_0_1_110_wf

class Facts : Prop extends Facts₀ where

variable [Facts]
-- ==== Proof.KerPieces.lean ====
/-
  What one grid point leaves behind, as values. The accumulator (a one-element scratch) ends every point at the
  body's accumulated value `k0_pay1 (k0_pay3 scores labels weights acc)`: at a restart point `acc` is the zero the
  body has just stored and read back, elsewhere it is what the previous point left. At the last point of a group the
  output block receives that same value (the body reads the accumulator back and stores it).
-/
import proofs.«429175_j9861244911667_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KerSide

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that neither restarts nor ends a group: the accumulator, holding `xs0`, ends at the accumulated value. -/
theorem sout_B (c : Dev nD) (i : grid0.Coords) (arg2 : Memref sig .tc .vmem S10x65536 .f32) (harg2 : arg2.IsWhole) (arg3 : Memref sig .tc .vmem S1x65536 .i32) (harg3 : arg3.IsWhole) (arg4 : Memref sig .tc .vmem S10x10 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : ¬cond0_1 i)
    (x0 : Vec F S10x65536 .f32) (x1 : Vec F S1x65536 .i32) (x2 : Vec F S10x10 .f32) (xs0 : Vec F S1x1x1 .f32) :
    sout0_B_0 c i arg2 harg2 arg3 harg3 arg4 harg4 arg5 harg5 arg6 harg6 hc0 hc1 x0 x1 x2 xs0 = k0_pay1 (k0_pay3 x0 x1 x2 xs0) := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz3]
  simp only [View.readAt_eq_ld, harg2.read_unread, harg3.read_unread, harg4.read_unread, harg6.read_unread,
    View.ld_unit_zero (S := S10x65536) hz2, View.ld_unit_zero (S := S1x65536) hz2, View.ld_unit_zero (S := S10x10) hz2,
    View.ld_unit_zero (S := S1x1x1) hz3]

/-- A restart point: the body stores the zero, reads it back as the accumulator, and leaves the accumulated value. -/
theorem sout_A (c : Dev nD) (i : grid0.Coords) (arg2 : Memref sig .tc .vmem S10x65536 .f32) (harg2 : arg2.IsWhole) (arg3 : Memref sig .tc .vmem S1x65536 .i32) (harg3 : arg3.IsWhole) (arg4 : Memref sig .tc .vmem S10x10 .f32) (harg4 : arg4.IsWhole) (arg5 : Memref sig .tc .vmem S1x1x1 .f32) (harg5 : arg5.IsWhole) (arg6 : Memref sig .tc .vmem S1x1x1 .f32) (harg6 : arg6.IsWhole) (hc0 : cond0_0 i) (hc1 : ¬cond0_1 i)
    (x0 : Vec F S10x65536 .f32) (x1 : Vec F S1x65536 .i32) (x2 : Vec F S10x10 .f32) :
    sout0_A_0 c i arg2 harg2 arg3 harg3 arg4 harg4 arg5 harg5 arg6 harg6 hc0 hc1 x0 x1 x2 = k0_pay1 (k0_pay3 x0 x1 x2 k0_pay2) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg6.read_unread,
    View.ld_unit_zero (S := S10x65536) hz2, View.ld_unit_zero (S := S1x65536) hz2, View.ld_unit_zero (S := S10x10) hz2,
    View.ld_unit_zero (S := S1x1x1) hz3]

/-- The last point of a group: the accumulator ends at the accumulated value … -/
theorem sout_C (c : Dev nD) (i : grid0.Coords) (arg2 : Memref sig .tc .vmem S10x65536 .f32) (harg2 : arg2.IsWhole) (arg3 : Memref sig .tc .vmem S1x65536 .i32) (harg3 : arg3.IsWhole) (arg4 : Memref sig .tc .vmem S10x10 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S10x65536 .f32) (x1 : Vec F S1x65536 .i32) (x2 : Vec F S10x10 .f32) (xs0 : Vec F S1x1x1 .f32) :
    sout0_C_0 c i arg2 harg2 arg3 harg3 arg4 harg4 arg5 harg5 arg6 harg6 hc0 hc1 x0 x1 x2 xs0 = k0_pay1 (k0_pay3 x0 x1 x2 xs0) := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S10x65536) hz2, View.ld_unit_zero (S := S1x65536) hz2, View.ld_unit_zero (S := S10x10) hz2,
    View.ld_unit_zero (S := S1x1x1) hz3]

/-- … and the output block receives the same value. -/
theorem out_C (c : Dev nD) (i : grid0.Coords) (arg2 : Memref sig .tc .vmem S10x65536 .f32) (harg2 : arg2.IsWhole) (arg3 : Memref sig .tc .vmem S1x65536 .i32) (harg3 : arg3.IsWhole) (arg4 : Memref sig .tc .vmem S10x10 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S10x65536 .f32) (x1 : Vec F S1x65536 .i32) (x2 : Vec F S10x10 .f32) (xs0 : Vec F S1x1x1 .f32) :
    out0_C_3 c i arg2 harg2 arg3 harg3 arg4 harg4 arg5 harg5 arg6 harg6 hc0 hc1 x0 x1 x2 xs0 = k0_pay1 (k0_pay3 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1x1) _ hz3]
  simp only [View.readAt_eq_ld, harg2.read_unread, harg3.read_unread, harg4.read_unread, harg6.read_unread,
    View.ld_unit_zero (S := S10x65536) hz2, View.ld_unit_zero (S := S1x65536) hz2, View.ld_unit_zero (S := S10x10) hz2,
    View.ld_unit_zero (S := S1x1x1) hz3]

end Cert.KerSide

end
-- ==== Proof.KerAcc.lean ====
/-
  The accumulator across the grid. Point `n` leaves `step n acc` in the accumulator, where `acc` is the stored
  zero at a restart point (`n` a multiple of 32) and the previous point's value otherwise; at the last point of a
  group (`n ≡ 31` mod 32) the output block receives the same value. So what the generated recursion over the cases'
  found pieces holds is this chain — by induction on the point.
-/
import proofs.«429175_j9861244911667_4_alg».proof.Proof.KerPieces

noncomputable section

open Idealize.ShloMosaic Idealize.ShloMosaic.TcCoe Idealize.SL.Sem
open Idealize.ShloMosaic.Pipeline (Dat)

namespace Cert.KerSide

open Cert.KernelIdeal Cert.KernelIdeal.Gen

variable {F : FTy → Type} [FloatOps F]
variable (m : (ℓ : Loc nD τ sig) → Buf (Elt F) ℓ)

/-- The three input blocks of point `t` at their literal types: scores [10, 65536], labels [1, 65536], weights [10, 10]. -/
abbrev xblk (c : Dev nD) (t : Fin cfg0.N) : Vec F S10x65536 .f32 := iblk m c 0 t
abbrev lblk (c : Dev nD) (t : Fin cfg0.N) : Vec F S1x65536 .i32 := iblk m c 1 t
abbrev wblk (c : Dev nD) (t : Fin cfg0.N) : Vec F S10x10 .f32 := iblk m c 2 t

/-- What point `t` makes of an accumulator value. -/
def step (c : Dev nD) (t : Fin cfg0.N) (acc : Vec F S1x1x1 .f32) : Vec F S1x1x1 .f32 :=
  k0_pay1 (k0_pay3 (xblk m c t) (lblk m c t) (wblk m c t) acc)

/-- The accumulator after point `n`. -/
def accChain (c : Dev nD) : (n : ℕ) → n < cfg0.N → Vec F S1x1x1 .f32
  | 0, h => step m c ⟨0, h⟩ k0_pay2
  | n + 1, h => if (n + 1) % 32 = 0 then step m c ⟨n + 1, h⟩ k0_pay2
      else step m c ⟨n + 1, h⟩ (accChain c n (Nat.lt_of_succ_lt h))

theorem sout_A_at (c : Dev nD) (t : Fin cfg0.N) (h0 : cond0_0 (grid0.coords t)) (h1 : ¬cond0_1 (grid0.coords t)) :
    sout0_A_0 c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) = step m c t k0_pay2 :=
  sout_A c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t)

theorem sout_B_at (c : Dev nD) (t : Fin cfg0.N) (h0 : ¬cond0_0 (grid0.coords t)) (h1 : ¬cond0_1 (grid0.coords t)) (xs0 : Vec F S1x1x1 .f32) :
    sout0_B_0 c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs0 = step m c t xs0 :=
  sout_B c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs0

theorem sout_C_at (c : Dev nD) (t : Fin cfg0.N) (h0 : ¬cond0_0 (grid0.coords t)) (h1 : cond0_1 (grid0.coords t)) (xs0 : Vec F S1x1x1 .f32) :
    sout0_C_0 c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs0 = step m c t xs0 :=
  sout_C c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs0

theorem out_C_at (c : Dev nD) (t : Fin cfg0.N) (h0 : ¬cond0_0 (grid0.coords t)) (h1 : cond0_1 (grid0.coords t)) (xs0 : Vec F S1x1x1 .f32) :
    out0_C_3 c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs0 = step m c t xs0 :=
  out_C c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs0

/-- The accumulator component of the generated recursion is the chain. -/
theorem outsAt_snd (c : Dev nD) : ∀ (n : ℕ) (h : n < cfg0.N), (outsAt0 m c n h).2 = accChain m c n h
  | 0, h => by
    rw [outsAt0_A m c ⟨0, h⟩ rfl (by show ¬(0 % 32 = 31); decide)]
    dsimp only
    exact sout_A_at m c ⟨0, h⟩ _ _
  | n + 1, h => by
    have hN : cfg0.N = 64 := N_0
    by_cases h0 : (n + 1) % 32 = 0
    · have h1 : ¬(n + 1) % 32 = 31 := by omega
      rw [outsAt0_A m c ⟨n + 1, h⟩ h0 h1]
      dsimp only
      rw [accChain, if_pos h0]
      exact sout_A_at m c ⟨n + 1, h⟩ _ _
    · by_cases h1 : (n + 1) % 32 = 31
      · rw [outsAt0_C m c ⟨n + 1, h⟩ h0 h1]
        dsimp only
        rw [accChain, if_neg h0, ← outsAt_snd c n (Nat.lt_of_succ_lt h)]
        exact sout_C_at m c ⟨n + 1, h⟩ _ _ _
      · rw [outsAt0_B m c ⟨n + 1, h⟩ h0 h1]
        dsimp only
        rw [accChain, if_neg h0, ← outsAt_snd c n (Nat.lt_of_succ_lt h)]
        exact sout_B_at m c ⟨n + 1, h⟩ _ _ _

/-- At the last point of a group the output block holds the chain's value too. -/
theorem outsAt_fst (c : Dev nD) (t : Fin cfg0.N) (h1 : t.val % 32 = 31) :
    (outsAt0 m c t.val t.isLt).1 = accChain m c t.val t.isLt := by
  have hN : cfg0.N = 64 := N_0
  have h0 : ¬t.val % 32 = 0 := by omega
  obtain ⟨n, hn⟩ := t
  cases n with
  | zero => exact absurd h1 (by show ¬(0 % 32 = 31); decide)
  | succ n =>
    rw [outsAt0_C m c ⟨n + 1, hn⟩ h0 h1]
    dsimp only
    rw [accChain, if_neg h0, ← outsAt_snd m c n (Nat.lt_of_succ_lt hn)]
    exact out_C_at m c ⟨n + 1, hn⟩ _ _ _

end Cert.KerSide

end
-- ==== Proof.KerHost.lean ====
/-
  What the region finds and what its windows read. Before the region the host transposes the scores to
  [10, 4194304] (class on the first axis), clips the labels into [0, 9] and lays them out as one row
  [1, 4194304], and writes the 10×10 weight matrix. Point `t` of the 64 reads columns
  `65536·t … 65536·t + 65535` of the first two and the whole matrix: so at the block's column `j` the scores
  are sample `65536·t + j`'s ten scores, and the label is that sample's label clipped.
-/
import proofs.«429175_j9861244911667_4_alg».proof.Proof.KerAcc
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KerSide

open Cert.KernelIdeal Cert.KernelIdeal.Gen Idealize.ShloMosaic.ValueIdx

variable {F : FTy → Type} [FloatOps F]
variable (m : (ℓ : Loc nD τ sig) → Buf (Elt F) ℓ)

/-- The grid has 64 points. -/
theorem N64 : cfg0.N = 64 := N_0

/-- Sample `65536·t + j`: column `j` of point `t`'s blocks. -/
def smp (t : Fin cfg0.N) (j : Fin 65536) : Fin 4194304 :=
  ⟨65536 * t.val + j.val, by have h : t.val < 64 := lt_of_lt_of_eq t.isLt N64; omega⟩

/-- A label clipped into the ten classes: `min 9 (max 0 t)`, signed. -/
def clipW (w : BitVec 32) : BitVec 32 := IntOp.minsi 9#32 (IntOp.maxsi 0#32 w)

/-! ## The arrays as the region finds them -/

theorem V_scores (c : Dev nD) : (V m c main_v1 : S10x4194304.Idx → Elt F .f32)
    = transpose S10x4194304 [1, 0] (m ((c : Thread nD τ).loc main_arg0)) transposes_S4194304x10_S10x4194304_1_0 := by
  dsimp only [V, V0]
  simp only [hostOps0, hostOps0_1, hostOps0_2, List.flatten_cons, List.flatten_nil, List.append_nil, List.cons_append, List.nil_append]
  after_results

theorem V_labels (c : Dev nD) : (V m c main_v2 : S1x4194304.Idx → BitVec 32)
    = shapeCast S1x4194304 (minsi (broadcastInDim S4194304 ![] bcast_S_S4194304 (constantI S_ 32 9#32))
        (maxsi (broadcastInDim S4194304 ![] bcast_S_S4194304 (constantI S_ 32 0#32)) (m ((c : Thread nD τ).loc main_arg1))))
        shapeCasts_S4194304_S1x4194304 := by
  dsimp only [V, V0]
  simp only [hostOps0, hostOps0_1, hostOps0_2, List.flatten_cons, List.flatten_nil, List.append_nil, List.cons_append, List.nil_append]
  after_results
  rfl

theorem V_weights (c : Dev nD) : (V m c main_cst : S10x10.Idx → Elt F .f32)
    = fun i => FloatOps.ofBits .f32 (lit0 (S10x10.rowMajor i)) := by
  dsimp only [V, V0]
  simp only [hostOps0, hostOps0_1, hostOps0_2, List.flatten_cons, List.flatten_nil, List.append_nil, List.cons_append, List.nil_append]
  after_results
  rfl

/-! ## The windows' block indices, decided over the grid -/

theorem idx_scores : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_labels : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx_weights : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-! ## The blocks read where the windows' rectangles say -/

theorem xblk_apply (c : Dev nD) (t : Fin cfg0.N) (cc : Fin 10) (j : Fin 65536) :
    xblk m c t (ix2 cc j) = (V m c main_v1 : S10x4194304.Idx → Elt F .f32) (ix2 cc (smp t j)) := by
  unfold xblk iblk
  rw [View.read_apply]
  show V m c main_v1 _ = V m c main_v1 _
  congr 1
  funext a
  apply Fin.ext
  match a with
  | ⟨0, _⟩ => show win0_0.index t 0 * 10 + 1 * cc.val = cc.val; rw [(idx_scores t).1]; omega
  | ⟨1, _⟩ => show win0_0.index t 1 * 65536 + 1 * j.val = 65536 * t.val + j.val; rw [(idx_scores t).2]; omega

theorem lblk_apply (c : Dev nD) (t : Fin cfg0.N) (j : Fin 65536) :
    lblk m c t (ix2 (0 : Fin 1) j) = (V m c main_v2 : S1x4194304.Idx → BitVec 32) (ix2 (0 : Fin 1) (smp t j)) := by
  unfold lblk iblk
  rw [View.read_apply]
  show V m c main_v2 _ = V m c main_v2 _
  congr 1
  funext a
  apply Fin.ext
  match a with
  | ⟨0, _⟩ => show win0_1.index t 0 * 1 + 1 * 0 = 0; rw [(idx_labels t).1]
  | ⟨1, _⟩ => show win0_1.index t 1 * 65536 + 1 * j.val = 65536 * t.val + j.val; rw [(idx_labels t).2]; omega

theorem wblk_apply (c : Dev nD) (t : Fin cfg0.N) (a b : Fin 10) :
    wblk m c t (ix2 a b) = (V m c main_cst : S10x10.Idx → Elt F .f32) (ix2 a b) := by
  unfold wblk iblk
  rw [View.read_apply]
  show V m c main_cst _ = V m c main_cst _
  congr 1
  funext d
  apply Fin.ext
  match d with
  | ⟨0, _⟩ => show win0_2.index t 0 * 10 + 1 * a.val = a.val; rw [(idx_weights t).1]; omega
  | ⟨1, _⟩ => show win0_2.index t 1 * 10 + 1 * b.val = b.val; rw [(idx_weights t).2]; omega

/-! ## … and in terms of the two argument arrays -/

theorem scores_at (c : Dev nD) (t : Fin cfg0.N) (cc : Fin 10) (j : Fin 65536) :
    xblk m c t (ix2 cc j) = (m ((c : Thread nD τ).loc main_arg0) : S4194304x10.Idx → Elt F .f32) (ix2 (smp t j) cc) := by
  rw [xblk_apply, V_scores]
  exact transpose_ix2_apply _ _ _ _

theorem labels_at (c : Dev nD) (t : Fin cfg0.N) (j : Fin 65536) :
    lblk m c t (ix2 (0 : Fin 1) j) = clipW ((m ((c : Thread nD τ).loc main_arg1) : S4194304.Idx → BitVec 32) (ix1 (smp t j))) := by
  rw [lblk_apply, V_labels]
  refine (shapeCast_apply _ _ (ix2 (0 : Fin 1) (smp t j)) (ix1 (smp t j)) ?_).trans rfl
  rw [Shape.rowMajor_val_one, Shape.rowMajor_val_two]
  show (smp t j).val = 0 * 4194304 + (smp t j).val
  omega

theorem weights_at (c : Dev nD) (t : Fin cfg0.N) (a b : Fin 10) :
    wblk m c t (ix2 a b) = FloatOps.ofBits .f32 (lit0 ⟨10 * a.val + b.val, by omega⟩) := by
  rw [wblk_apply, V_weights]
  show FloatOps.ofBits .f32 (lit0 (S10x10.rowMajor (ix2 a b))) = _
  congr 2
  apply Fin.ext
  rw [Shape.rowMajor_val_two]
  show a.val * 10 + b.val = 10 * a.val + b.val
  omega

end Cert.KerSide

end
-- ==== Proof.KerFinal.lean ====
/-
  The result array and the host lines after the region. The output [2, 1, 1] is written back twice, after points 31
  and 63: entry `g` receives the accumulator's value after point `32·g + 31`. The host then adds the two entries
  (from zero) and divides by N.
-/
import proofs.«429175_j9861244911667_4_alg».proof.Proof.KerHost

noncomputable section

open Idealize.ShloMosaic Idealize.ShloMosaic.TcCoe Idealize.SL.Sem Idealize.ShloMosaic.StableHlo
open Idealize.ShloMosaic.Pipeline (Dat)

namespace Cert.KerSide

open Cert.KernelIdeal Cert.KernelIdeal.Gen Idealize.ShloMosaic.ValueIdx

variable {F : FTy → Type} [FloatOps F]
variable (m : (ℓ : Loc nD τ sig) → Buf (Elt F) ℓ) (ρ : Dev nD → PrngReg)

/-- The chain's value does not depend on how its point is written. -/
theorem accChain_congr (c : Dev nD) {n n' : ℕ} (e : n = n') (h : n < cfg0.N) (h' : n' < cfg0.N) :
    accChain m c n h = accChain m c n' h' := by subst e; rfl

/-- The result array after the run: entry `g` is the accumulator after the last point of group `g`. -/
def outArr (c : Dev nD) : S2x1x1.Idx → Elt F .f32 := fun i =>
  accChain m c (32 * (i 0).val + 31) (by have h : (i 0).val < 2 := (i 0).isLt; rw [N64]; omega) (ix3 (0 : Fin 1) (0 : Fin 1) (0 : Fin 1))

theorem idx_out : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)

/-- What a write-back point writes is its block of `outArr`. -/
theorem flushed_eq (c : Dev nD) (t : Fin cfg0.N) (hf : (cfg0.win 3).flush t = true) :
    (dats m 0 c).flushed 3 t = ((cfg0.win 3).blk t).view.read (Elt F) (outArr m c) := by
  have h31 : t.val % 32 = 31 := (flush0_3 t).mp hf
  have hN : t.val < 64 := lt_of_lt_of_eq t.isLt N64
  show (cfg0.win 3).cut (grid0.coords t) ((dats m 0 c).after 3 t) = _
  rw [after0_3, outsAt_fst m c t h31]
  funext y
  show accChain m c t.val t.isLt y = outArr m c (((cfg0.win 3).blk t).view.emb y)
  unfold outArr
  have hy : y = ix3 (0 : Fin 1) (0 : Fin 1) (0 : Fin 1) := by
    funext a; apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega
  have he : ((((cfg0.win 3).blk t).view.emb y) 0).val = t.val / 32 := by
    show win0_3.index t 0 * 1 + 1 * (y 0).val = _
    have h : (y 0).val < 1 := (y 0).isLt
    rw [(idx_out t).1]; omega
  rw [hy]
  exact congrFun (accChain_congr m c (by rw [← hy, he]; omega) _ _) _

/-- Membership in a point's output block, coordinate by coordinate. -/
theorem mem_blk_out (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v3).slice (win0_3.rect t)).set ↔ _
  rw [View.set_slice_whole, Rect.mem_set_unit]
  exact Iff.rfl

/-- The two write-backs cover the array, so it ends at `outArr`. -/
theorem final_out (c : Dev nD) : (dats m 0 c).arrAt 3 cfg0.N = outArr m c :=
  (dats m 0 c).arrAt_eq_of_cover 3 (outArr m c) (flushed_eq m c) fun i => by
    have h0 : (i 0).val < 2 := (i 0).isLt
    have h1 : (i 1).val < 1 := (i 1).isLt
    have h2 : (i 2).val < 1 := (i 2).isLt
    let t : Fin cfg0.N := ⟨32 * (i 0).val + 31, by rw [N64]; omega⟩
    have ht : t.val = 32 * (i 0).val + 31 := rfl
    refine ⟨t, (flush0_3 t).mpr (by rw [ht]; omega), ?_⟩
    rw [mem_blk_out]
    obtain ⟨e0, e1, e2⟩ := idx_out t
    intro a
    match a with
    | ⟨0, _⟩ => show win0_3.index t 0 * 1 ≤ (i 0).val ∧ (i 0).val < win0_3.index t 0 * 1 + 1; rw [e0, ht]; omega
    | ⟨1, _⟩ => show win0_3.index t 1 * 1 ≤ (i 1).val ∧ (i 1).val < win0_3.index t 1 * 1 + 1; rw [e1]; omega
    | ⟨2, _⟩ => show win0_3.index t 2 * 1 ≤ (i 2).val ∧ (i 2).val < win0_3.index t 2 * 1 + 1; rw [e2]; omega

/-- The program's result: the two entries added from zero, divided by N. -/
def kerResult (c : Dev nD) : S_.Idx → Elt F .f32 :=
  Host.divf (Host.reduceAdd (outArr m c) (constant S_ .f32 0x00000000#32) reducesTo_S2x1x1_S_d0_1_2 h_S_) (constant S_ .f32 0x4A800000#32)

/-- The host lines after the region leave the result buffer at `kerResult`. -/
theorem tail_eq (c : Dev nD) :
    Pipeline.afterTail₀ cfgs (dats m) 0 (V0 m) [hostOps1] c main_v5 = kerResult m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v3) = outArr m c :=
    (Pipeline.withArrays_arr spec0 launch0.win.arr_inj c _ _ 3).trans (final_out m c)
  rw [e]
  rfl

/-- The run, read: the result buffer at `kerResult`, the two arguments unchanged. -/
theorem ker_run : θ_run defs (onTc (τ := τ) (main (F := F))) ⟨m, fun _ => 0, ρ⟩ fun r => ∀ c : Dev nD,
      r.2.mem ((c.tc : Thread nD τ).loc main_v5) = kerResult m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KerSide

end
-- ==== Proof.LossSpec.lean ====
/-
  The ordinal label-smoothing loss as one function of the two argument arrays, on the extended reals.

  For a sample `n` with scores `x = X[n, ·]` (ten classes) and label `t = Tg[n]`:
    m        = max_c x c                         (the row maximum, taken from −∞)
    logp c   = (x c − m) − log (Σ_k exp (x k − m))   (the shifted log-softmax)
    loss n   = Σ_c T[row t, c] · logp c          (the smoothed-label row of the table against the log-probabilities)
  and the result is  −((Σ_n loss n) / N)  with N = 4194304 (the word 0x4A800000 is 2^22).
  The table row of a non-negative label is the label clamped to the last class, `min t 9`.

  The kernel adds the per-sample terms block by block: 64 blocks of 65536 samples, each block's
  total `Σ_j (0 − loss)` added into a running sum that restarts from 0 at blocks 0 and 32; the two
  running sums after blocks 31 and 63 are added and divided by N. `blockTot` and `runAcc` state that
  arrangement; that it is the negated mean needs every `loss n` to be a real number.
-/
import Idealize.ShloMosaic.PureOps.Ideal
import Idealize.ShloMosaic.Lib.ValueIdx

noncomputable section

open scoped BigOperators

namespace Cert.LossSpec

open Idealize.ShloMosaic Idealize.ShloMosaic.ValueIdx

/-- The scores' shape [4194304, 10], the labels' [4194304]. -/
abbrev SX : Shape := ⟨2, ![4194304, 10]⟩
abbrev ST : Shape := ⟨1, ![4194304]⟩

/-- A row's maximum, folded from −∞. -/
def rowMax (x : Fin 10 → EReal) : EReal := (Finset.univ : Finset (Fin 10)).fold max ⊥ x

/-- The shifted log-softmax of a row at class `c`. -/
def logProb (x : Fin 10 → EReal) (c : Fin 10) : EReal :=
  (x c - rowMax x) - Ideal.log (∑ k : Fin 10, Ideal.exp (x k - rowMax x))

/-- One sample's term: the weights `w` (a row of the smoothing table) against the row's log-probabilities. -/
def sampleLoss (w x : Fin 10 → EReal) : EReal := ∑ c : Fin 10, w c * logProb x c

/-- The table row a label selects: the label read signed, negative labels at 0, clamped to the last class. -/
def labelRow (t : BitVec 32) : Fin 10 := ⟨min t.toInt.toNat 9, by omega⟩

/-- Sample `n`'s term for scores `X`, labels `Tg` and table `T`; outside the batch it is `0`. -/
def lossAt (T : Fin 10 → Fin 10 → EReal) (X : SX.Idx → EReal) (Tg : ST.Idx → BitVec 32) (n : ℕ) : EReal :=
  if h : n < 4194304 then sampleLoss (T (labelRow (Tg (ix1 ⟨n, h⟩)))) (fun c => X (ix2 ⟨n, h⟩ c)) else 0

/-- The loss: minus the mean of the samples' terms. -/
def meanLoss (T : Fin 10 → Fin 10 → EReal) (X : SX.Idx → EReal) (Tg : ST.Idx → BitVec 32) : EReal :=
  -(Ideal.div (∑ n : Fin 4194304, lossAt T X Tg n.val) (Ideal.ofBits .f32 0x4A800000#32))

/-- Block `t`'s total of the negated terms `0 − q`: samples `65536·t … 65536·t + 65535`. -/
def blockTot (q : ℕ → EReal) (t : ℕ) : EReal := ∑ j : Fin 65536, (0 - q (65536 * t + j.val))

/-- The running sum after block `n`: restarted from `0` at every block whose number is a multiple of 32. -/
def runAcc (tot : ℕ → EReal) : ℕ → EReal
  | 0 => 0 + tot 0
  | n + 1 => if (n + 1) % 32 = 0 then 0 + tot (n + 1) else runAcc tot n + tot (n + 1)

end Cert.LossSpec

end
-- ==== Proof.KerPayload.lean ====
/-
  The kernel body's arithmetic at one grid point, read at the extended reals: from a block of scores (classes on the
  first axis, 65536 samples on the second), the block's labels and the 10×10 weight matrix, the value stored into the
  accumulator is the accumulator's previous value plus the block's total of the negated per-sample terms.
-/
import proofs.«429175_j9861244911667_4_alg».proof.Proof.Gen.KernelIdeal.Skeleton
import proofs.«429175_j9861244911667_4_alg».proof.Proof.LossSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KerPayload

open Cert.KernelIdeal Cert.KernelIdeal.Gen Idealize.ShloMosaic Idealize.ShloMosaic.ValueIdx Cert.LossSpec

/-! ### Layout operations at an index -/

section Layout
variable {α : Type}

/-- A per-sample vector viewed as one row reads its element. -/
theorem row_apply (u : S65536.Idx → α) (h : S65536.ShapeCasts S1x65536) (z : Fin 1) (j : Fin 65536) :
    shapeCast S1x65536 u h (ix2 z j) = u (ix1 j) :=
  shapeCast_a_1a_apply u h z j

/-- One row repeated under every class reads the row. -/
theorem rows_apply (v : S1x65536.Idx → α) (h : S1x65536.Broadcasts S10x65536) (c : Fin 10) (j : Fin 65536) :
    broadcastTo S10x65536 v h (ix2 c j) = v (ix2 (0 : Fin 1) j) :=
  broadcastTo_1b_ab_apply v h c j

/-- One column repeated under every sample reads the column. -/
theorem cols_apply (v : S10x1.Idx → α) (h : S10x1.Broadcasts S10x65536) (c : Fin 10) (j : Fin 65536) :
    broadcastTo S10x65536 v h (ix2 c j) = v (ix2 c (0 : Fin 1)) := by
  refine broadcastTo_apply v h (ix2 c j) (ix2 c (0 : Fin 1)) fun ax => ?_
  match ax with
  | ⟨0, _⟩ => rfl
  | ⟨1, _⟩ => rfl

/-- The row with two leading unit axes reads the row. -/
theorem row3_apply (v : S1x65536.Idx → α) (h : S1x65536.ShapeCasts S1x1x65536) (z z' : Fin 1) (j : Fin 65536) :
    shapeCast S1x1x65536 v h (ix3 z z' j) = v (ix2 z' j) :=
  shapeCast_ab_1ab_apply v h z z' j

/-- Every index of the one-element rank-3 shape is the same. -/
theorem idx111_eq (y y' : S1x1x1.Idx) : y = y' := by
  funext ax
  match ax with
  | ⟨0, _⟩ => exact Fin.ext (by have h1 : (y 0).val < 1 := (y 0).isLt; have h2 : (y' 0).val < 1 := (y' 0).isLt; show (y 0).val = (y' 0).val; omega)
  | ⟨1, _⟩ => exact Fin.ext (by have h1 : (y 1).val < 1 := (y 1).isLt; have h2 : (y' 1).val < 1 := (y' 1).isLt; show (y 1).val = (y' 1).val; omega)
  | ⟨2, _⟩ => exact Fin.ext (by have h1 : (y 2).val < 1 := (y 2).isLt; have h2 : (y' 2).val < 1 := (y' 2).isLt; show (y 2).val = (y' 2).val; omega)

/-- Every index of the one-element rank-1 shape is the same. -/
theorem idx1_eq (i i' : S1.Idx) : i = i' := by
  funext ax
  match ax with
  | ⟨0, _⟩ => exact Fin.ext (by have h1 : (i 0).val < 1 := (i 0).isLt; have h2 : (i' 0).val < 1 := (i' 0).isLt; show (i 0).val = (i' 0).val; omega)

/-- The one-element vector under the rank-3 one-element shape reads its element. -/
theorem one3_apply (u : S1.Idx → α) (h : S1.ShapeCasts S1x1x1) (y : S1x1x1.Idx) :
    shapeCast S1x1x1 u h y = u (ix1 (0 : Fin 1)) := by
  unfold shapeCast
  exact congrArg u (idx1_eq _ _)

end Layout

/-! ### The reductions at an index -/

/-- The word `0xFF800000` is `−∞`. -/
theorem negInf_f32 : FloatOps.ofBits (F := Ideal) .f32 0xFF800000#32 = (⊥ : EReal) := by
  simp [Ideal.ofBits, Ideal.ieee]

/-- The maximum down a column, from `−∞`, is the column's `rowMax`. -/
theorem colMax_apply (v : FVec Ideal S10x65536 .f32) (h : S10x65536.Reduces [0] S65536) (hφ : FKind.Formats .f32)
    (hacc : (0xFF800000#32 : BitVec 32) = 0xFF800000#32) (j : Fin 65536) :
    multiReduction .maximumf [0] S65536 v 0xFF800000#32 h hφ hacc (ix1 j) = rowMax (fun c : Fin 10 => v (ix2 c j)) := by
  refine (Ideal.multiReduction_maximumf_single v 0xFF800000#32 h hφ hacc (ix1 j)).trans ?_
  have hf : (v ∘ h.lift (ix1 j)) = fun c : Fin 10 => v (ix2 c j) :=
    funext fun c => congrArg v (funext fun ax => Fin.ext (match ax with | ⟨0, _⟩ => rfl | ⟨1, _⟩ => rfl))
  rw [negInf_f32, hf]
  rfl

/-- The sum down a column. -/
theorem colSum_apply (v : FVec Ideal S10x65536 .f32) (h : S10x65536.Reduces [0] S65536) (hφ : FKind.Formats .f32)
    (hacc : (0x00000000#32 : BitVec 32) = 0x00000000#32) (j : Fin 65536) :
    multiReduction .add [0] S65536 v 0x00000000#32 h hφ hacc (ix1 j) = ∑ c : Fin 10, v (ix2 c j) := by
  refine (Ideal.multiReduction_add_single v 0x00000000#32 h hφ hacc (ix1 j)).trans ?_
  exact Finset.sum_congr rfl fun c _ =>
    congrArg v (funext fun ax => Fin.ext (match ax with | ⟨0, _⟩ => rfl | ⟨1, _⟩ => rfl))

/-- The samples of the block as the indices of the `[1, 1, 65536]` shape. -/
def sampleEquiv : Fin 65536 ≃ S1x1x65536.Idx where
  toFun j := ix3 (0 : Fin 1) (0 : Fin 1) j
  invFun i := i 2
  left_inv _ := rfl
  right_inv i := by
    funext ax
    match ax with
    | ⟨0, _⟩ => exact Fin.ext (by have h1 : (i 0).val < 1 := (i 0).isLt; show 0 = (i 0).val; omega)
    | ⟨1, _⟩ => exact Fin.ext (by have h1 : (i 1).val < 1 := (i 1).isLt; show 0 = (i 1).val; omega)
    | ⟨2, _⟩ => rfl

/-- The sum over both trailing axes of a `[1, 1, 65536]` vector is the sum over the samples. -/
theorem total_apply (u : FVec Ideal S1x1x65536 .f32) (h : S1x1x65536.Reduces [1, 2] S1) (hφ : FKind.Formats .f32)
    (hacc : (0x00000000#32 : BitVec 32) = 0x00000000#32) (i : S1.Idx) :
    multiReduction .add [1, 2] S1 u 0x00000000#32 h hφ hacc i = ∑ j : Fin 65536, u (ix3 (0 : Fin 1) (0 : Fin 1) j) := by
  refine (Ideal.multiReduction_add_total u 0x00000000#32 h (fun b => ?_) hφ hacc i).trans ?_
  · match b with
    | ⟨0, _⟩ => rfl
  · exact (Equiv.sum_comp sampleEquiv u).symm

/-! ### The product with the one-hot matrix -/

/-- The left operand's index at result index `j`, contraction index `k`: the row is the result's row … -/
theorem lhs_axis0 (j : S10x65536.Idx) (k : dot_S10x10_S10x65536_S10x65536_1_0_0_1_n_n.contr.Idx) :
    (dot_S10x10_S10x65536_S10x65536_1_0_0_1_n_n.lhsIdx j k 0).val = (j 0).val := rfl

/-- … and the column is the contraction coordinate. -/
theorem lhs_axis1 (j : S10x65536.Idx) (k : dot_S10x10_S10x65536_S10x65536_1_0_0_1_n_n.contr.Idx) :
    (dot_S10x10_S10x65536_S10x65536_1_0_0_1_n_n.lhsIdx j k 1).val = (k ⟨0, by decide⟩).val :=
  dot_S10x10_S10x65536_S10x65536_1_0_0_1_n_n.lhsIdx_val_of_single rfl j k

/-- The right operand's index: the row is the contraction coordinate … -/
theorem rhs_axis0 (j : S10x65536.Idx) (k : dot_S10x10_S10x65536_S10x65536_1_0_0_1_n_n.contr.Idx) :
    (dot_S10x10_S10x65536_S10x65536_1_0_0_1_n_n.rhsIdx j k 0).val = (k ⟨0, by decide⟩).val :=
  dot_S10x10_S10x65536_S10x65536_1_0_0_1_n_n.rhsIdx_val_of_single rfl j k

/-- … and the column is the result's column. -/
theorem rhs_axis1 (j : S10x65536.Idx) (k : dot_S10x10_S10x65536_S10x65536_1_0_0_1_n_n.contr.Idx) :
    (dot_S10x10_S10x65536_S10x65536_1_0_0_1_n_n.rhsIdx j k 1).val = (j 1).val := rfl

/-- The matrix product into the zero accumulator, at an entry: the sum over the ten contraction positions. -/
theorem matmul_entry (W : FVec Ideal S10x10 .f32) (R : FVec Ideal S10x65536 .f32) (c : Fin 10) (j : Fin 65536) :
    matmul dot_S10x10_S10x65536_S10x65536_1_0_0_1_n_n none W R (constant (F := Ideal) S10x65536 .f32 0x00000000#32) (ix2 c j)
      = ∑ k : Fin 10, W (ix2 c k) * R (ix2 k j) := by
  refine (Ideal.matmul_constant_zero_apply dot_S10x10_S10x65536_S10x65536_1_0_0_1_n_n none W R (ix2 c j)).trans ?_
  rw [← Equiv.sum_comp (contrEquiv1 dot_S10x10_S10x65536_S10x65536_1_0_0_1_n_n 10 rfl rfl).symm]
  refine Finset.sum_congr rfl fun k _ => ?_
  have hk := contrEquiv1_symm_val dot_S10x10_S10x65536_S10x65536_1_0_0_1_n_n 10 rfl rfl k
  have hl : dot_S10x10_S10x65536_S10x65536_1_0_0_1_n_n.lhsIdx (ix2 c j)
      ((contrEquiv1 dot_S10x10_S10x65536_S10x65536_1_0_0_1_n_n 10 rfl rfl).symm k) = ix2 c k :=
    Shape.idx_ext₂ (lhs_axis0 _ _) ((lhs_axis1 _ _).trans hk)
  have hr : dot_S10x10_S10x65536_S10x65536_1_0_0_1_n_n.rhsIdx (ix2 c j)
      ((contrEquiv1 dot_S10x10_S10x65536_S10x65536_1_0_0_1_n_n 10 rfl rfl).symm k) = ix2 k j :=
    Shape.idx_ext₂ ((rhs_axis0 _ _).trans hk) (rhs_axis1 _ _)
  rw [hl, hr]

/-- The word test "class number = label", widened and converted: `1` where they agree, `0` elsewhere. -/
theorem onehot_word (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · subst h
    rw [if_pos rfl]
    have : (IntOp.cmpi .eq x x).setWidth 32 = 1#32 := by simp [IntOp.cmpi]
    rw [this]
    norm_num
  · rw [if_neg h]
    have hb : (x == y) = false := beq_eq_false_iff_ne.mpr h
    have : (IntOp.cmpi .eq x y).setWidth 32 = 0#32 := by simp [IntOp.cmpi, hb]
    rw [this]
    norm_num

/-- The one-hot matrix at an entry. -/
theorem onehot_apply (lab : IVec S1x65536 32) (hi : S10x1.Iotas .tc 32 [0]) (hb1 : S10x1.Broadcasts S10x65536)
    (hb2 : S1x65536.Broadcasts S10x65536) (hlt : 1 < 32) (c : Fin 10) (j : Fin 65536) :
    (sitofp .f32 (extui 32 (cmpi .eq (broadcastTo S10x65536 (iota .tc S10x1 32 [0] hi) hb1)
        (broadcastTo S10x65536 lab hb2)) hlt) : FVec Ideal S10x65536 .f32) (ix2 c j)
      = if BitVec.ofNat 32 c.val = lab (ix2 (0 : Fin 1) j) then 1 else 0 := by
  show FloatOps.sitofp (F := Ideal) .f32 ((IntOp.cmpi .eq (broadcastTo S10x65536 (iota .tc S10x1 32 [0] hi) hb1 (ix2 c j))
      (broadcastTo S10x65536 lab hb2 (ix2 c j))).setWidth 32) = _
  rw [cols_apply, rows_apply, iota_single_apply, onehot_word]

/-- Two class numbers with the same 32-bit word are the same class. -/
theorem ofNat_class_inj {c k : Fin 10} (h : BitVec.ofNat 32 c.val = BitVec.ofNat 32 k.val) : c = k := by
  have := congrArg BitVec.toNat h
  simp only [BitVec.toNat_ofNat] at this
  exact Fin.ext (by omega)

/-- The table row of a class number's word is that class. -/
theorem labelRow_class (k : Fin 10) : labelRow (BitVec.ofNat 32 k.val) = k := by
  fin_cases k <;> rfl

/-- Against the one-hot column of a label, a row of the weights gives its entry at the label. -/
theorem sum_onehot (w : Fin 10 → EReal) (t : BitVec 32) (kl : Fin 10) (ht : t = BitVec.ofNat 32 kl.val) :
    ∑ k : Fin 10, w k * (if BitVec.ofNat 32 k.val = t then (1 : EReal) else 0) = w (labelRow t) := by
  subst ht
  rw [labelRow_class]
  rw [Finset.sum_eq_single kl]
  · rw [if_pos rfl, mul_one]
  · intro b _ hb
    rw [if_neg fun h => hb (ofNat_class_inj h), mul_zero]
  · intro h; exact absurd (Finset.mem_univ kl) h

/-! ### The elementwise exponential and logarithm at an index -/

theorem exp_apply {s : Shape} {φ : FTy} (v : FVec Ideal s φ) (i : s.Idx) : exp v i = Ideal.exp (v i) := rfl

theorem log_apply {s : Shape} {φ : FTy} (v : FVec Ideal s φ) (i : s.Idx) : log v i = Ideal.log (v i) := rfl

/-- The element extracted from the rank-3 view of a one-element vector is that element. -/
theorem extract_one3 {α : Type} (u : S1.Idx → α) (h : S1.ShapeCasts S1x1x1) (hp : ∀ ax, (![0, 0, 0] : Fin 3 → Nat) ax < S1x1x1.size ax) :
    extractAt ![0, 0, 0] (shapeCast S1x1x1 u h) hp = u (ix1 (0 : Fin 1)) := by
  unfold extractAt
  exact one3_apply u h _

/-- The product of the weight matrix with the one-hot matrix of the labels picks, in every row, the entry at the
    sample's label. -/
theorem weights_apply (W : FVec Ideal S10x10 .f32) (lab : IVec S1x65536 32) (hi : S10x1.Iotas .tc 32 [0])
    (hb1 : S10x1.Broadcasts S10x65536) (hb2 : S1x65536.Broadcasts S10x65536) (hlt : 1 < 32) (c : Fin 10) (j : Fin 65536)
    (kl : Fin 10) (ht : lab (ix2 (0 : Fin 1) j) = BitVec.ofNat 32 kl.val) :
    matmul dot_S10x10_S10x65536_S10x65536_1_0_0_1_n_n none W
        (sitofp .f32 (extui 32 (cmpi .eq (broadcastTo S10x65536 (iota .tc S10x1 32 [0] hi) hb1)
          (broadcastTo S10x65536 lab hb2)) hlt))
        (constant (F := Ideal) S10x65536 .f32 0x00000000#32) (ix2 c j)
      = W (ix2 c (labelRow (lab (ix2 (0 : Fin 1) j)))) := by
  refine (matmul_entry W _ c j).trans ?_
  refine (Finset.sum_congr rfl fun k _ => congrArg (W (ix2 c k) * ·) (onehot_apply lab hi hb1 hb2 hlt k j)).trans ?_
  exact sum_onehot (fun k => W (ix2 c k)) _ kl ht

/-- The shifted log-softmax the kernel forms from a score block, at class `c` of sample `j`: the column's `logProb`. -/
theorem logp_apply (v : FVec Ideal S10x65536 .f32) (hr : S10x65536.Reduces [0] S65536) (hc : S65536.ShapeCasts S1x65536)
    (hb : S1x65536.Broadcasts S10x65536) (hφ : FKind.Formats .f32) (hm : (0xFF800000#32 : BitVec 32) = 0xFF800000#32)
    (ha : (0x00000000#32 : BitVec 32) = 0x00000000#32) (c : Fin 10) (j : Fin 65536) :
    subf (subf v (broadcastTo S10x65536 (shapeCast S1x65536 (multiReduction .maximumf [0] S65536 v 0xFF800000#32 hr hφ hm) hc) hb))
        (broadcastTo S10x65536 (log (shapeCast S1x65536 (multiReduction .add [0] S65536
          (exp (subf v (broadcastTo S10x65536
            (shapeCast S1x65536 (multiReduction .maximumf [0] S65536 v 0xFF800000#32 hr hφ hm) hc) hb)))
          0x00000000#32 hr hφ ha) hc)) hb) (ix2 c j)
      = logProb (fun c : Fin 10 => v (ix2 c j)) c := by
  simp only [subf_apply, rows_apply, row_apply, log_apply]
  rw [colMax_apply, colSum_apply]
  unfold logProb
  refine congrArg (fun s => v (ix2 c j) - rowMax (fun c : Fin 10 => v (ix2 c j)) - Ideal.log s)
    (Finset.sum_congr rfl fun k _ => ?_)
  simp only [exp_apply, subf_apply, rows_apply, row_apply]
  rw [colMax_apply]

/-- With every label of the block one of the ten class numbers, the accumulated value is, at the accumulator's one
    index, `a + Σ_j (0 − loss_j)`: sample `j`'s term takes its weights from column `label_j` of the weight matrix
    (the one-hot product picks that column) and its log-probabilities from column `j` of the score block. -/
theorem pay3_apply (x0 : Vec Ideal S10x65536 .f32) (x1 : Vec Ideal S1x65536 .i32) (x2 : Vec Ideal S10x10 .f32) (a : Vec Ideal S1x1x1 .f32)
    (hx1 : ∀ j : Fin 65536, ∃ k : Fin 10, x1 (ix2 (0 : Fin 1) j) = BitVec.ofNat 32 k.val) (y : S1x1x1.Idx) :
    k0_pay3 (F := Ideal) x0 x1 x2 a y
      = a y + ∑ j : Fin 65536, (0 - sampleLoss (fun c : Fin 10 => x2 (ix2 c (labelRow (x1 (ix2 (0 : Fin 1) j))))) (fun c : Fin 10 => x0 (ix2 c j))) := by
  unfold k0_pay3
  dsimp only
  rw [shapeCast_self x0, shapeCast_self x1, addf_apply, broadcast_apply, extract_one3, total_apply]
  refine congrArg (a y + ·) (Finset.sum_congr rfl fun j _ => ?_)
  obtain ⟨kl, hkl⟩ := hx1 j
  rw [row3_apply, subf_apply, broadcast_apply, row_apply, colSum_apply, Ideal.ofBits_def, Ideal.ofBits_zero_f32]
  unfold sampleLoss
  refine congrArg (0 - ·) (Finset.sum_congr rfl fun c _ => ?_)
  rw [mulf_apply, weights_apply x2 x1 _ _ _ _ c j kl hkl]
  refine congrArg (x2 (ix2 c (labelRow (x1 (ix2 (0 : Fin 1) j)))) * ·) ?_
  exact logp_apply x0 _ _ _ _ _ _ c j

end Cert.KerPayload

end
-- ==== Proof.LossAlgebra.lean ====
/-
  Two facts about the loss on the extended reals, both needing real (finite) data.
-/
import proofs.«429175_j9861244911667_4_alg».proof.Proof.LossSpec
import Mathlib.Data.Finset.Fold
import Mathlib.Data.Fintype.BigOperators
import Mathlib.Analysis.SpecialFunctions.Log.Basic

noncomputable section

open scoped BigOperators

namespace Cert.LossSpec

open Idealize.ShloMosaic

/-- A finite sum of real numbers, read in the extended reals, is the real sum. -/
theorem coe_finsum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of ten real numbers, folded from −∞, is a real number: it is below +∞ because every entry is,
    and above −∞ because the first entry is. -/
theorem rowMax_real (xr : Fin 10 → ℝ) : ∃ m : ℝ, rowMax (fun c => (xr c : EReal)) = (m : EReal) := by
  have htop : rowMax (fun c => (xr c : EReal)) < ⊤ := by
    rw [rowMax, Finset.fold_max_lt]
    exact ⟨bot_lt_top, fun c _ => EReal.coe_lt_top _⟩
  have hbot : ⊥ < rowMax (fun c => (xr c : EReal)) := by
    rw [rowMax, Finset.lt_fold_max]
    exact Or.inr ⟨0, Finset.mem_univ _, EReal.bot_lt_coe _⟩
  exact ⟨_, (EReal.coe_toReal htop.ne hbot.ne').symm⟩

/-- With real weights and real scores a sample's term is a real number: the row maximum is one of the scores,
    the exponentials are positive reals, so their sum is a positive real and its logarithm is real. -/
theorem sampleLoss_real (w x : Fin 10 → EReal) (hw : ∀ c, ∃ r : ℝ, w c = (r : EReal)) (hx : ∀ c, ∃ r : ℝ, x c = (r : EReal)) :
    ∃ r : ℝ, sampleLoss w x = (r : EReal) := by
  choose wr hwr using hw
  choose xr hxr using hx
  obtain rfl : x = fun c => (xr c : EReal) := funext hxr
  obtain ⟨m, hm⟩ := rowMax_real xr
  have hS : (0 : ℝ) < ∑ k : Fin 10, Real.exp (xr k - m) :=
    Finset.sum_pos (fun k _ => Real.exp_pos _) Finset.univ_nonempty
  have hlp : ∀ c, logProb (fun c => (xr c : EReal)) c
      = (((xr c - m) - Real.log (∑ k : Fin 10, Real.exp (xr k - m)) : ℝ) : EReal) := by
    intro c
    simp only [logProb, hm, ← EReal.coe_sub, Ideal.exp_coe, coe_finsum, Ideal.log_coe, if_neg (not_le.mpr hS)]
  refine ⟨∑ c : Fin 10, wr c * ((xr c - m) - Real.log (∑ k : Fin 10, Real.exp (xr k - m))), ?_⟩
  simp only [sampleLoss, hlp, hwr, ← EReal.coe_mul, coe_finsum]

/-- A block whose number is a multiple of 32 restarts the running sum. -/
theorem runAcc_restart (tot : ℕ → EReal) (n : ℕ) (h : n % 32 = 0) : runAcc tot n = tot n := by
  cases n with
  | zero => show 0 + tot 0 = tot 0; rw [zero_add]
  | succ n =>
    show (if (n + 1) % 32 = 0 then 0 + tot (n + 1) else runAcc tot n + tot (n + 1)) = tot (n + 1)
    rw [if_pos h, zero_add]

/-- Any other block adds its total to the running sum. -/
theorem runAcc_step (tot : ℕ → EReal) (n : ℕ) (h : (n + 1) % 32 ≠ 0) : runAcc tot (n + 1) = runAcc tot n + tot (n + 1) := by
  show (if (n + 1) % 32 = 0 then 0 + tot (n + 1) else runAcc tot n + tot (n + 1)) = _
  rw [if_neg h]

/-- Inside the run that starts at block 32·g, the running sum after k more blocks is the sum of the run's first k + 1 totals. -/
theorem runAcc_block (tot : ℕ → EReal) (g : ℕ) :
    ∀ k, k < 32 → runAcc tot (32 * g + k) = ∑ i ∈ Finset.range (k + 1), tot (32 * g + i)
  | 0, _ => by
    rw [Nat.add_zero, runAcc_restart tot _ (by omega), Finset.sum_range_one, Nat.add_zero]
  | k + 1, hk => by
    show runAcc tot ((32 * g + k) + 1) = _
    rw [runAcc_step tot _ (by omega), runAcc_block tot g k (by omega), Finset.sum_range_succ _ (k + 1)]
    rfl

/-- A sum over m·k consecutive indices, cut into m consecutive blocks of k. -/
theorem sum_range_blocks (f : ℕ → ℝ) (k : ℕ) :
    ∀ m, ∑ n ∈ Finset.range (m * k), f n = ∑ t ∈ Finset.range m, ∑ j ∈ Finset.range k, f (k * t + j)
  | 0 => by rw [Nat.zero_mul, Finset.range_zero, Finset.sum_empty, Finset.sum_empty]
  | m + 1 => by
    rw [Nat.succ_mul, Finset.sum_range_add, sum_range_blocks f k m, Finset.sum_range_succ, Nat.mul_comm m k]

/-- One block's sum of the real terms. -/
def blockSum (qr : ℕ → ℝ) (t : ℕ) : ℝ := ∑ j ∈ Finset.range 65536, qr (65536 * t + j)

/-- The divisor's word is the real number 2^22. -/
theorem ofBits_count : Ideal.ofBits .f32 0x4A800000#32 = ((4194304 : ℝ) : EReal) := by
  simp [Ideal.ofBits, Ideal.ieee]
  rw [← EReal.coe_mul]
  norm_num

/-- For real terms the blockwise arrangement is the negated mean: the 64 block totals of `0 − q`, accumulated in two
    runs of 32 blocks, add up to `−Σ_n q n`, and dividing by N commutes with the sign. -/
theorem mean_of_blocks (q : ℕ → EReal) (hq : ∀ n, ∃ r : ℝ, q n = (r : EReal)) :
    Ideal.div (0 + ∑ g : Fin 2, runAcc (blockTot q) (32 * g.val + 31)) (Ideal.ofBits .f32 0x4A800000#32)
      = -(Ideal.div (∑ n : Fin 4194304, q n.val) (Ideal.ofBits .f32 0x4A800000#32)) := by
  choose qr hqr using hq
  -- a block's total of the negated terms is minus the block's real sum
  have hB : ∀ t, blockTot q t = ((-(blockSum qr t) : ℝ) : EReal) := by
    intro t
    have h1 : ∀ j : Fin 65536, (0 : EReal) - q (65536 * t + j.val) = ((-(qr (65536 * t + j.val)) : ℝ) : EReal) := by
      intro j
      rw [hqr, zero_sub, EReal.coe_neg]
    rw [blockTot, Finset.sum_congr rfl (fun j _ => h1 j), coe_finsum,
      Fin.sum_univ_eq_sum_range (fun j => -(qr (65536 * t + j))) 65536, Finset.sum_neg_distrib, blockSum]
  -- a run of 32 blocks ends at minus the sum of its 32 block sums
  have hR : ∀ g, runAcc (blockTot q) (32 * g + 31) = ((-(∑ i ∈ Finset.range 32, blockSum qr (32 * g + i)) : ℝ) : EReal) := by
    intro g
    rw [runAcc_block _ g 31 (by norm_num), Finset.sum_congr rfl (fun i _ => hB (32 * g + i)), coe_finsum,
      Finset.sum_neg_distrib]
  -- all the samples, cut into the 64 blocks and those into the two runs
  have hN : (4194304 : ℕ) = 64 * 65536 := by norm_num
  have hall : ∑ n ∈ Finset.range 4194304, qr n
      = ∑ i ∈ Finset.range 32, blockSum qr (32 * 0 + i) + ∑ i ∈ Finset.range 32, blockSum qr (32 * 1 + i) := by
    rw [hN, sum_range_blocks qr 65536 64, show (64 : ℕ) = 32 + 32 from rfl, Finset.sum_range_add]
    simp only [Nat.mul_zero, Nat.zero_add, Nat.mul_one, blockSum]
  have hS : (∑ n : Fin 4194304, q n.val) = ((∑ n ∈ Finset.range 4194304, qr n : ℝ) : EReal) := by
    rw [Fin.sum_univ_eq_sum_range q 4194304, Finset.sum_congr rfl (fun n _ => hqr n), coe_finsum]
  have hd : (4194304 : ℝ) ≠ 0 := by norm_num
  rw [ofBits_count, Ideal.div_coe hd, Ideal.div_coe hd, hS, Fin.sum_univ_two, Fin.val_zero, Fin.val_one, hR, hR,
    zero_add, ← EReal.coe_add, ← EReal.coe_mul, ← EReal.coe_mul, ← EReal.coe_neg, hall]
  rw [EReal.coe_eq_coe_iff]
  ring

end Cert.LossSpec

end
-- ==== Proof.Table.lean ====
/-
  The smoothing table as extended reals: entry (r, c) is the reference's literal at row-major position 10·r + c.
-/
import proofs.«429175_j9861244911667_4_alg».proof.ReferenceIdeal
import Idealize.ShloMosaic.PureOps.Ideal

noncomputable section

namespace Cert.Table

open Idealize.ShloMosaic

/-- The smoothed-label weight of class `c` for true class `r`. -/
def tab (r c : Fin 10) : EReal := Ideal.ofBits .f32 (Cert.ReferenceIdeal.lit0 ⟨10 * r.val + c.val, by omega⟩)

/-- A single-precision word whose exponent field is not all ones denotes a real number: it is a zero, a subnormal
    or a normal, each a dyadic rational. -/
theorem ofBits_f32_real (w : BitVec 32) (h : (w.extractLsb' 23 8).toNat ≠ 255) :
    ∃ v : ℝ, Ideal.ofBits .f32 w = (v : EReal) := by
  show ∃ v : ℝ, Ideal.ieee 8 23 w = (v : EReal)
  unfold Ideal.ieee
  simp only []
  rw [if_neg (by simpa using h)]
  split_ifs <;> exact ⟨_, rfl⟩

/-- No literal of the table has the all-ones exponent. -/
theorem lit0_exponent (r c : Fin 10) :
    ((Cert.ReferenceIdeal.lit0 ⟨10 * r.val + c.val, by omega⟩).extractLsb' 23 8).toNat ≠ 255 := by
  revert r c
  decide

/-- Every table entry is a real number (no literal has the all-ones exponent). -/
theorem tab_real (r c : Fin 10) : ∃ v : ℝ, tab r c = (v : EReal) := by
  exact ofBits_f32_real _ (lit0_exponent r c)

end Cert.Table

end
-- ==== Proof.KerValue.lean ====
/-
  The kernel's result is the loss. At the extended reals one grid point adds its block's total of the negated
  per-sample terms to the accumulator: the clipped label of a non-negative label selects the same table row as the
  label itself (the kernel's weight matrix is the table transposed, entry by entry), and the block's column `j` is
  sample `65536·t + j`. So the accumulator follows `runAcc`, the result array holds the two group sums, and with
  real scores the host's sum and division give minus the mean.
-/
import proofs.«429175_j9861244911667_4_alg».proof.Proof.KerFinal
import proofs.«429175_j9861244911667_4_alg».proof.Proof.KerPayload
import proofs.«429175_j9861244911667_4_alg».proof.Proof.LossAlgebra
import proofs.«429175_j9861244911667_4_alg».proof.Proof.Table

noncomputable section

open scoped BigOperators
open Idealize.ShloMosaic Idealize.ShloMosaic.TcCoe Idealize.SL.Sem
open Idealize.ShloMosaic.Pipeline (Dat)

namespace Cert.KerSide

open Cert.KernelIdeal Cert.KernelIdeal.Gen Idealize.ShloMosaic.ValueIdx Cert.LossSpec

/-! ## Labels: clipping a non-negative label, and the table row it selects -/

theorem toNat_of_nonneg (w : BitVec 32) (hw : 0 ≤ w.toInt) : w.toInt.toNat = w.toNat := by
  have hlt := w.isLt
  rw [BitVec.toInt_eq_toNat_cond] at hw ⊢
  by_cases h : 2 * w.toNat < 2 ^ 32
  · rw [if_pos h]; omega
  · rw [if_neg h] at hw; omega

/-- A non-negative label clipped is one of the ten class numbers, the one its table row is. -/
theorem clip_spec (w : BitVec 32) (hw : 0 ≤ w.toInt) : ∃ k : Fin 10, clipW w = BitVec.ofNat 32 k.val ∧ labelRow w = k := by
  have h1 : (w.slt 0#32) = false := by
    simp only [BitVec.slt, decide_eq_false_iff_not, not_lt]
    exact hw
  unfold clipW IntOp.maxsi IntOp.minsi
  rw [h1]
  simp only [Bool.false_eq_true, if_false]
  by_cases h9 : (9#32).slt w = true
  · rw [if_pos h9]
    have h9' : (9 : Int) < w.toInt := by simpa [BitVec.slt] using h9
    refine ⟨9, rfl, ?_⟩
    apply Fin.ext
    show min w.toInt.toNat 9 = 9
    omega
  · rw [if_neg h9]
    have h9' : w.toInt ≤ 9 := by simpa [BitVec.slt] using h9
    refine ⟨⟨w.toInt.toNat, by omega⟩, ?_, ?_⟩
    · show w = BitVec.ofNat 32 w.toInt.toNat
      rw [toNat_of_nonneg w hw]
      simp
    · apply Fin.ext
      show min w.toInt.toNat 9 = w.toInt.toNat
      omega

theorem labelRow_ofNat (k : Fin 10) : labelRow (BitVec.ofNat 32 k.val) = k := by
  fin_cases k <;> rfl

/-- The kernel's weight matrix is the reference's table transposed, word for word. -/
theorem lit_transpose : ∀ a b : Fin 10,
    Cert.KernelIdeal.lit0 ⟨10 * a.val + b.val, by omega⟩ = Cert.ReferenceIdeal.lit0 ⟨10 * b.val + a.val, by omega⟩ := by
  decide

/-! ## One point, the chain, the result -/

variable (m : (ℓ : Loc nD τ sig) → Buf (Elt Ideal) ℓ)

/-- The two argument arrays, and sample `n`'s term of them. -/
abbrev scoresOf (c : Dev nD) : SX.Idx → EReal := m ((c.tc : Thread nD τ).loc main_arg0)
abbrev labelsOf (c : Dev nD) : ST.Idx → BitVec 32 := m ((c.tc : Thread nD τ).loc main_arg1)
def qOf (c : Dev nD) : ℕ → EReal := lossAt Cert.Table.tab (scoresOf m c) (labelsOf m c)

theorem pay1_apply (v : FVec Ideal S1x1x1 .f32) : k0_pay1 v = v := shapeCast_self _ _

theorem pay2_apply (y : S1x1x1.Idx) : k0_pay2 (F := Ideal) y = 0 := by
  unfold k0_pay2
  rw [shapeCast_self]
  exact Ideal.ofBits_zero_f32

/-- Point `t` adds block `t`'s total to the accumulator. -/
theorem step_apply (c : Dev nD) (t : Fin cfg0.N) (acc : Vec Ideal S1x1x1 .f32)
    (hT : ∀ i, 0 ≤ (labelsOf m c i).toInt) (y : S1x1x1.Idx) :
    step m c t acc y = acc y + blockTot (qOf m c) t.val := by
  unfold step
  rw [pay1_apply]
  have hx1 : ∀ j : Fin 65536, ∃ k : Fin 10, lblk m c t (ix2 (0 : Fin 1) j) = BitVec.ofNat 32 k.val := fun j => by
    obtain ⟨k, hk, _⟩ := clip_spec _ (hT (ix1 (smp t j)))
    exact ⟨k, (labels_at m c t j).trans hk⟩
  rw [Cert.KerPayload.pay3_apply (xblk m c t) (lblk m c t) (wblk m c t) acc hx1 y]
  refine congrArg (acc y + ·) ?_
  unfold blockTot
  refine Finset.sum_congr rfl fun j _ => ?_
  refine congrArg (0 - ·) ?_
  unfold qOf lossAt
  have hlt : 65536 * t.val + j.val < 4194304 := (smp t j).isLt
  rw [dif_pos hlt]
  refine congrArg₂ sampleLoss ?_ ?_
  · funext cc
    obtain ⟨k, hk, hrow⟩ := clip_spec _ (hT (ix1 (smp t j)))
    rw [labels_at m c t j, hk, labelRow_ofNat, weights_at m c t cc k]
    show Ideal.ofBits .f32 (lit0 ⟨10 * cc.val + k.val, _⟩) = Cert.Table.tab (labelRow (labelsOf m c (ix1 (smp t j)))) cc
    rw [hrow, lit_transpose]
    rfl
  · funext cc
    exact scores_at m c t cc j

/-- The accumulator after point `n` is the running sum of the block totals. -/
theorem accChain_eq (c : Dev nD) (hT : ∀ i, 0 ≤ (labelsOf m c i).toInt) :
    ∀ (n : ℕ) (h : n < cfg0.N) (y : S1x1x1.Idx), accChain m c n h y = runAcc (blockTot (qOf m c)) n
  | 0, h, y => by
    rw [accChain, step_apply m c _ _ hT, pay2_apply, runAcc]
  | n + 1, h, y => by
    rw [accChain, runAcc]
    by_cases h0 : (n + 1) % 32 = 0
    · rw [if_pos h0, if_pos h0, step_apply m c _ _ hT, pay2_apply]
    · rw [if_neg h0, if_neg h0, step_apply m c _ _ hT, accChain_eq c hT n _ y]

/-- Every sample's term is real when the scores are. -/
theorem qOf_real (c : Dev nD) (hX : ∀ i, ∃ r : ℝ, scoresOf m c i = (r : EReal)) (n : ℕ) : ∃ r : ℝ, qOf m c n = (r : EReal) := by
  unfold qOf lossAt
  by_cases h : n < 4194304
  · rw [dif_pos h]
    exact sampleLoss_real _ _ (fun cc => Cert.Table.tab_real _ cc) (fun cc => hX _)
  · rw [dif_neg h]
    exact ⟨0, rfl⟩

/-- The result array's two entries as an index set. -/
def groupEquiv : Fin 2 ≃ S2x1x1.Idx where
  toFun g := ix3 g (0 : Fin 1) (0 : Fin 1)
  invFun i := i 0
  left_inv _ := rfl
  right_inv i := by
    funext a; apply Fin.ext
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega

/-- With real scores and non-negative labels the kernel's result is the loss. -/
theorem kerResult_eq (c : Dev nD) (hX : ∀ i, ∃ r : ℝ, scoresOf m c i = (r : EReal)) (hT : ∀ i, 0 ≤ (labelsOf m c i).toInt) :
    kerResult m c = fun _ => meanLoss Cert.Table.tab (scoresOf m c) (labelsOf m c) := by
  funext i
  unfold kerResult
  show Ideal.div (Ideal.hostReduceAdd reducesTo_S2x1x1_S_d0_1_2 (outArr m c) (Ideal.ofBits .f32 0x00000000#32) i) (Ideal.ofBits .f32 0x4A800000#32) = _
  rw [Ideal.hostReduceAdd_total _ (fun b => b.elim0), Ideal.ofBits_zero_f32]
  have hs : ∑ i : S2x1x1.Idx, outArr m c i = ∑ g : Fin 2, runAcc (blockTot (qOf m c)) (32 * g.val + 31) :=
    (Fintype.sum_equiv groupEquiv _ _ fun g => (accChain_eq m c hT _ _ _).symm).symm
  rw [hs, mean_of_blocks _ (qOf_real m c hX)]
  rfl

end Cert.KerSide

end
-- ==== Proof.LibClampIndex.lean ====
/-
  Scalar facts about the index arithmetic of a trilinear sampler, at the ideal
  (extended-real) reading of the float operations: a clipped and floored coordinate
  is an integer in [0, B]; its upper neighbour, capped at B, is too; a flat index
  z·(H·W) + y·W + x computed in 32-bit words does not wrap when D·H·W ≤ 2^31; the
  negative-index normalisation and the in-range test are then trivial.
-/
import Idealize.ShloMosaic.PureOps.Ideal

namespace Cert.Lib.ClampIndex

open Idealize.ShloMosaic

/-- A signed 32-bit word lies in [-2^31, 2^31). -/
theorem toInt_bounds (v : BitVec 32) : -2147483648 ≤ v.toInt ∧ v.toInt < 2147483648 := by
  have h1 := BitVec.le_toInt v
  have h2 := @BitVec.toInt_lt 32 v
  norm_num at h1 h2
  exact ⟨h1, h2⟩

/-- An integer in [-2^31, 2^31) is its own balanced residue modulo 2^32. -/
theorem bmod_self (v : ℤ) (h0 : -2147483648 ≤ v) (h1 : v < 2147483648) : v.bmod (2 ^ 32) = v := by
  apply Int.bmod_eq_of_le <;> norm_num <;> omega

/-- The word sum of two signed words whose integer sum fits in 32 bits is that integer sum. -/
theorem toInt_add_of_fits (a c : BitVec 32) (h0 : -2147483648 ≤ a.toInt + c.toInt)
    (h1 : a.toInt + c.toInt < 2147483648) : (a + c).toInt = a.toInt + c.toInt := by
  rw [BitVec.toInt_add]; exact bmod_self _ h0 h1

/-- The word product of two signed words whose integer product fits in 32 bits is that integer product. -/
theorem toInt_mul_of_fits (a c : BitVec 32) (h0 : -2147483648 ≤ a.toInt * c.toInt)
    (h1 : a.toInt * c.toInt < 2147483648) : (a * c).toInt = a.toInt * c.toInt := by
  rw [BitVec.toInt_mul]; exact bmod_self _ h0 h1

/-- The neighbour index min(i + 1, B) of an index 0 ≤ i ≤ B stays in [0, B]. -/
theorem next_range (i b : BitVec 32) (hi0 : 0 ≤ i.toInt) (hib : i.toInt ≤ b.toInt) (hb : b.toInt < 2^31 - 1) :
    0 ≤ (IntOp.minsi (IntOp.addi i 1#32) b).toInt ∧ (IntOp.minsi (IntOp.addi i 1#32) b).toInt ≤ b.toInt := by
  have h1 : (1#32 : BitVec 32).toInt = 1 := by decide
  have hadd : (i + 1#32).toInt = i.toInt + 1 := by
    have := toInt_add_of_fits i 1#32 (by rw [h1]; omega) (by rw [h1]; omega)
    rw [this, h1]
  have hs : (i + 1#32).slt b = decide (i.toInt + 1 < b.toInt) := by rw [BitVec.slt_eq_decide, hadd]
  unfold IntOp.minsi IntOp.addi
  rw [hs]
  by_cases h : i.toInt + 1 < b.toInt
  · rw [decide_eq_true h, if_pos rfl, hadd]; omega
  · rw [decide_eq_false h, if_neg (by decide)]; omega

/-- Over the integers: for 0 ≤ z < D, 0 ≤ y < H, 0 ≤ x < W, the row offset y·W + x is below H·W and
    the plane offset z·(H·W) leaves room for a whole plane below D·H·W. -/
theorem flat_int_bounds (z y x : ℤ) (D H W : ℕ) (hz0 : 0 ≤ z) (hz : z < D) (hy0 : 0 ≤ y) (hy : y < H)
    (hx0 : 0 ≤ x) (hx : x < W) :
    0 ≤ y * W ∧ y * W + x < (H : ℤ) * W ∧ 0 ≤ z * ((H : ℤ) * W) ∧ z * ((H : ℤ) * W) + (H : ℤ) * W ≤ (D : ℤ) * H * W := by
  have hW0 : (0 : ℤ) ≤ W := Int.natCast_nonneg W
  have hHW0 : (0 : ℤ) ≤ (H : ℤ) * W := Int.mul_nonneg (Int.natCast_nonneg H) hW0
  have hyW : y * W + x < (H : ℤ) * W := by
    have : (y + 1) * W ≤ (H : ℤ) * W := Int.mul_le_mul_of_nonneg_right (by omega) hW0
    rw [Int.add_mul, Int.one_mul] at this
    omega
  have hzHW : z * ((H : ℤ) * W) + (H : ℤ) * W ≤ (D : ℤ) * H * W := by
    have : (z + 1) * ((H : ℤ) * W) ≤ (D : ℤ) * ((H : ℤ) * W) :=
      Int.mul_le_mul_of_nonneg_right (by omega) hHW0
    rw [Int.add_mul, Int.one_mul] at this
    have e : (D : ℤ) * H * W = (D : ℤ) * ((H : ℤ) * W) := Int.mul_assoc _ _ _
    rw [e]; exact this
  exact ⟨Int.mul_nonneg hy0 hW0, hyW, Int.mul_nonneg hz0 hHW0, hzHW⟩

/-- The flat index z·(H·W) + y·W + x of a point of a D × H × W grid, computed in 32-bit words, does not
    wrap when D·H·W ≤ 2^31: it is the same expression over the integers. -/
theorem flat_toInt (z y x hw wc : BitVec 32) (D H W : ℕ) (hhw : hw.toInt = H * W) (hwc : wc.toInt = W)
    (hD : (D * H * W : ℤ) ≤ 2^31) (hz0 : 0 ≤ z.toInt) (hz : z.toInt < D) (hy0 : 0 ≤ y.toInt) (hy : y.toInt < H)
    (hx0 : 0 ≤ x.toInt) (hx : x.toInt < W) :
    (IntOp.addi (IntOp.addi (IntOp.muli z hw) (IntOp.muli y wc)) x).toInt
      = z.toInt * (H * W) + y.toInt * W + x.toInt := by
  -- every partial value lies in [0, D·H·W), hence in the signed 32-bit range
  obtain ⟨hyW0, hyW, hzHW0, hzHW⟩ := flat_int_bounds z.toInt y.toInt x.toInt D H W hz0 hz hy0 hy hx0 hx
  have hD' : (D : ℤ) * H * W ≤ 2147483648 := by norm_num at hD; exact hD
  unfold IntOp.addi IntOp.muli
  have hm1 : (z * hw).toInt = z.toInt * ((H : ℤ) * W) := by
    rw [toInt_mul_of_fits z hw (by rw [hhw]; omega) (by rw [hhw]; omega), hhw]
  have hm2 : (y * wc).toInt = y.toInt * W := by
    rw [toInt_mul_of_fits y wc (by rw [hwc]; omega) (by rw [hwc]; omega), hwc]
  have ha1 : (z * hw + y * wc).toInt = z.toInt * ((H : ℤ) * W) + y.toInt * W := by
    rw [toInt_add_of_fits _ _ (by rw [hm1, hm2]; omega) (by rw [hm1, hm2]; omega), hm1, hm2]
  rw [toInt_add_of_fits _ _ (by rw [ha1]; omega) (by rw [ha1]; omega), ha1]

/-- The flat index of a point of a D × H × W grid lies in [0, D·H·W). -/
theorem flat_range (z y x hw wc : BitVec 32) (D H W : ℕ) (hhw : hw.toInt = H * W) (hwc : wc.toInt = W)
    (hD : (D * H * W : ℤ) ≤ 2^31) (hz0 : 0 ≤ z.toInt) (hz : z.toInt < D) (hy0 : 0 ≤ y.toInt) (hy : y.toInt < H)
    (hx0 : 0 ≤ x.toInt) (hx : x.toInt < W) :
    0 ≤ (IntOp.addi (IntOp.addi (IntOp.muli z hw) (IntOp.muli y wc)) x).toInt
      ∧ (IntOp.addi (IntOp.addi (IntOp.muli z hw) (IntOp.muli y wc)) x).toInt < D * H * W := by
  rw [flat_toInt z y x hw wc D H W hhw hwc hD hz0 hz hy0 hy hx0 hx]
  obtain ⟨hyW0, hyW, hzHW0, hzHW⟩ := flat_int_bounds z.toInt y.toInt x.toInt D H W hz0 hz hy0 hy hx0 hx
  constructor <;> omega

/-- jnp's negative-index normalisation (add n when i < 0) is the identity on a non-negative index. -/
theorem norm_id (i n : BitVec 32) (hi0 : 0 ≤ i.toInt) :
    Scalar.select (IntOp.cmpi .slt i 0#32) (IntOp.addi i n) i = i := by
  have h0 : (0#32 : BitVec 32).toInt = 0 := by decide
  have hs : i.slt 0#32 = false := by
    rw [BitVec.slt_eq_decide, h0]; exact decide_eq_false (by omega)
  unfold Scalar.select IntOp.cmpi
  simp only [hs]
  rw [if_neg (by decide)]

/-- The in-range test 0 ≤ i ∧ i ≤ mx answers true on an index in [0, mx]. -/
theorem inrange_true (i mx : BitVec 32) (hi0 : 0 ≤ i.toInt) (hi : i.toInt ≤ mx.toInt) :
    IntOp.andi (IntOp.cmpi .sge i 0#32) (IntOp.cmpi .sle i mx) = 1#1 := by
  have h0 : (0#32 : BitVec 32).toInt = 0 := by decide
  have hs1 : (0#32 : BitVec 32).sle i = true := by
    rw [BitVec.sle_eq_decide, h0]; exact decide_eq_true hi0
  have hs2 : i.sle mx = true := by
    rw [BitVec.sle_eq_decide]; exact decide_eq_true hi
  unfold IntOp.andi IntOp.cmpi
  simp only [hs1, hs2]
  decide

/-- A non-negative signed word, read as a natural number and back as an integer, is itself. -/
theorem toNat_of_range (i : BitVec 32) (hi0 : 0 ≤ i.toInt) : (i.toInt.toNat : ℤ) = i.toInt :=
  Int.toNat_of_nonneg hi0

/-- Capping a natural index below M at M − 1 leaves it unchanged. -/
theorem min_toNat_of_lt (i : BitVec 32) (M : ℕ) (hi0 : 0 ≤ i.toInt) (hi : i.toInt < M) :
    min i.toInt.toNat (M - 1) = i.toInt.toNat := by
  have := toNat_of_range i hi0
  omega

/-- The natural-number reading of a signed word in [0, M) is below M. -/
theorem toNat_lt_of_range (i : BitVec 32) (M : ℕ) (hi0 : 0 ≤ i.toInt) (hi : i.toInt < M) :
    i.toInt.toNat < M := by
  have := toNat_of_range i hi0
  omega

/-- An extended real between 0 and a real B is itself a real, in [0, B]. -/
theorem exists_real_of_mem (c : EReal) (B : ℝ) (h0 : 0 ≤ c) (hB : c ≤ (B : EReal)) :
    ∃ r : ℝ, c = (r : EReal) ∧ 0 ≤ r ∧ r ≤ B := by
  induction c using EReal.rec with
  | bot => exact absurd h0 (not_le.mpr EReal.bot_lt_zero)
  | top => exact absurd hB (not_le.mpr (EReal.coe_lt_top B))
  | coe r => exact ⟨r, rfl, EReal.coe_nonneg.mp h0, EReal.coe_le_coe_iff.mp hB⟩

/-- Clipping any extended real x to [0, B] (B ≥ 0 a signed word read as a real) gives a real in [0, B],
    whatever x is: an infinity is clipped to an end of the interval. -/
theorem clamp_real (b : BitVec 32) (hb : 0 ≤ b.toInt) (x : Ideal .f32) :
    ∃ r : ℝ, FloatOps.minimumf (FloatOps.sitofp (F := Ideal) .f32 b)
        (FloatOps.maximumf (FloatOps.ofBits (F := Ideal) .f32 0x00000000#32) x) = ((r : ℝ) : EReal)
      ∧ 0 ≤ r ∧ r ≤ (b.toInt : ℝ) := by
  have hz : FloatOps.ofBits (F := Ideal) .f32 0x00000000#32 = (0 : EReal) := by
    simp [Ideal.ofBits, Ideal.ieee]
  apply exists_real_of_mem
  · show (0 : EReal) ≤ min (((b.toInt : ℝ)) : EReal) (max (FloatOps.ofBits (F := Ideal) .f32 0x00000000#32) x)
    rw [hz]
    exact le_min (EReal.coe_nonneg.mpr (by exact_mod_cast hb)) (le_max_left _ _)
  · exact min_le_left _ _

/-- Flooring a real r in [0, B], with B below 2^31, and converting to a signed 32-bit word gives the word
    whose signed value is ⌊r⌋: neither the conversion's clamp nor the word's wrap-around intervenes. -/
theorem fptosi_floor_coe (r : ℝ) (B : ℤ) (h0 : 0 ≤ r) (hB : r ≤ (B : ℝ)) (hB31 : B < 2147483648) :
    (Ideal.fptosi 32 (Ideal.liftRound Int.floor (r : EReal))).toInt = ⌊r⌋ := by
  have hf0 : 0 ≤ ⌊r⌋ := Int.floor_nonneg.mpr h0
  have hfB : ⌊r⌋ ≤ B := by
    have : ⌊r⌋ ≤ ⌊(B : ℝ)⌋ := Int.floor_le_floor hB
    rwa [Int.floor_intCast] at this
  have hnn : (0 : ℝ) ≤ ((⌊r⌋ : ℤ) : ℝ) := by exact_mod_cast hf0
  rw [Ideal.liftRound_coe, Ideal.fptosi, Ideal.toIntClamped_coe, if_pos hnn, Int.floor_intCast]
  have hmin : min ((((2 ^ (32 - 1) : ℕ)) : ℤ) - 1) ⌊r⌋ = ⌊r⌋ := min_eq_right (by norm_num; omega)
  have hmax : max (-(((2 ^ (32 - 1) : ℕ)) : ℤ)) ⌊r⌋ = ⌊r⌋ := max_eq_right (by norm_num; omega)
  rw [hmin, hmax, BitVec.toInt_ofInt]
  exact bmod_self _ (by omega) (by omega)

/-- The clipped, floored and converted coordinate equals the floor of the clipped real: there is a real
    r in [0, B] that the clip produces and the resulting signed word is ⌊r⌋. -/
theorem clampFloor_eq (b : BitVec 32) (hb : 0 ≤ b.toInt) (x : Ideal .f32) :
    ∃ r : ℝ, FloatOps.minimumf (FloatOps.sitofp (F := Ideal) .f32 b)
        (FloatOps.maximumf (FloatOps.ofBits (F := Ideal) .f32 0x00000000#32) x) = ((r : ℝ) : EReal)
      ∧ 0 ≤ r ∧ r ≤ (b.toInt : ℝ)
      ∧ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt = ⌊r⌋ := by
  obtain ⟨r, hr, hr0, hrB⟩ := clamp_real b hb x
  refine ⟨r, hr, hr0, hrB, ?_⟩
  rw [hr]
  exact fptosi_floor_coe r b.toInt hr0 hrB (toInt_bounds b).2

/-- A coordinate clipped to [0, B], floored and converted to a signed 32-bit word is an index in [0, B]. -/
theorem clampFloor_range (b : BitVec 32) (hb : 0 ≤ b.toInt) (x : Ideal .f32) :
    0 ≤ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt
      ∧ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt ≤ b.toInt := by
  obtain ⟨r, _, hr0, hrB, hi⟩ := clampFloor_eq b hb x
  rw [hi]
  refine ⟨Int.floor_nonneg.mpr hr0, ?_⟩
  have : ⌊r⌋ ≤ ⌊(b.toInt : ℝ)⌋ := Int.floor_le_floor hrB
  rwa [Int.floor_intCast] at this

end Cert.Lib.ClampIndex
-- ==== Proof.RefSide.lean ====
/-
  The reference's run: its result buffer ends at the loss of its two argument arrays.
-/
import proofs.«429175_j9861244911667_4_alg».proof.Proof.Gen.ReferenceIdeal
import proofs.«429175_j9861244911667_4_alg».proof.Proof.LossSpec
import proofs.«429175_j9861244911667_4_alg».proof.Proof.Table
import proofs.«429175_j9861244911667_4_alg».proof.Proof.LibClampIndex
import Idealize.ShloMosaic.Lib.StableHlo.Run
import Idealize.ShloMosaic.PureOps.Ideal.Laws
import Idealize.ShloMosaic.Lib.Pipeline.Value

noncomputable section

namespace Cert.RefSide

open Cert.ReferenceIdeal Cert.ReferenceIdeal.Gen Idealize.ShloMosaic Idealize.ShloMosaic.TcCoe Idealize.SL.Sem Idealize.ShloMosaic.StableHlo

open scoped BigOperators

/-! ## The program as a straight line -/

section Line

variable {F : FTy → Type} [FloatOps F]

/-- The call's operand: the scores' buffer at its tensor type. -/
abbrev arg0T : TRef sig ⟨S4194304x10, .f32⟩ := .of main_arg0

/-- @main's thirty-five operations in order, the callee's fifteen listed at the call over the call's buffers. -/
abbrev ops : List (HloOp τ sig (Elt F)) :=
  [ nullary main_cst (fun i => FloatOps.ofBits .f32 (lit0 (S10x10.rowMajor i))),
    TRef.nullary main_call0.cst (constant S_ .f32 0xFF800000#32),
    TRef.binary arg0T main_call0.cst main_call0.v0 (fun x v => Host.reduce FloatOps.maximumf x v reducesTo_S4194304x10_S4194304_d1 h_S_),
    TRef.nullary main_call0.cst_0 (constant S_ .f32 0xFF800000#32),
    TRef.unary main_call0.cst_0 main_call0.v1 (broadcastInDim S4194304 ![] bcast_S_S4194304),
    TRef.binary main_call0.v1 main_call0.v0 main_call0.v2 maximumf,
    TRef.unary main_call0.v2 main_call0.v3 (broadcastInDim S4194304x1 ![0] bcast_S4194304_S4194304x1_0),
    TRef.unary main_call0.v3 main_call0.v4 (broadcastInDim S4194304x10 ![0, 1] bcast_S4194304x1_S4194304x10_0_1),
    TRef.binary arg0T main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S4194304x10_S4194304_d1 h_S_),
    TRef.unary main_call0.v7 main_call0.v8 (broadcastInDim S4194304x1 ![0] bcast_S4194304_S4194304x1_0),
    TRef.unary main_call0.v8 main_call0.v9 Host.log,
    TRef.unary main_call0.v9 main_call0.v10 (broadcastInDim S4194304x10 ![0, 1] bcast_S4194304x1_S4194304x10_0_1),
    TRef.binary main_call0.v5 main_call0.v10 main_call0.v11 subf,
    nullary main_c (constantI S_ 32 0#32),
    unary main_c main_v1 (broadcastInDim S4194304 ![] bcast_S_S4194304 : (⟨S_, .i32⟩ : BufTy).Contents (Elt F) → (⟨S4194304, .i32⟩ : BufTy).Contents (Elt F)),
    binary main_arg1 main_v1 main_v2 (cmpi .slt : (⟨S4194304, .i32⟩ : BufTy).Contents (Elt F) → (⟨S4194304, .i32⟩ : BufTy).Contents (Elt F) → (⟨S4194304, .i1⟩ : BufTy).Contents (Elt F)),
    nullary main_c_0 (constantI S_ 32 10#32),
    unary main_c_0 main_v3 (broadcastInDim S4194304 ![] bcast_S_S4194304 : (⟨S_, .i32⟩ : BufTy).Contents (Elt F) → (⟨S4194304, .i32⟩ : BufTy).Contents (Elt F)),
    binary main_arg1 main_v3 main_v4 (addi : (⟨S4194304, .i32⟩ : BufTy).Contents (Elt F) → (⟨S4194304, .i32⟩ : BufTy).Contents (Elt F) → (⟨S4194304, .i32⟩ : BufTy).Contents (Elt F)),
    ternary main_v2 main_v4 main_arg1 main_v5 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v5 main_v6 (broadcastInDim S4194304x1 ![0] bcast_S4194304_S4194304x1_0 : (⟨S4194304, .i32⟩ : BufTy).Contents (Elt F) → (⟨S4194304x1, .i32⟩ : BufTy).Contents (Elt F)),
    binary main_cst main_v6 main_v7 ((fun x i => Host.gather gather_S10x10_S4194304x1_S4194304x10_1_0_n_n_0_1_110 x i) : (⟨S10x10, .f32⟩ : BufTy).Contents (Elt F) → (⟨S4194304x1, .i32⟩ : BufTy).Contents (Elt F) → (⟨S4194304x10, .f32⟩ : BufTy).Contents (Elt F)),
    binary main_v7 main_v0 main_v8 (mulf : (⟨S4194304x10, .f32⟩ : BufTy).Contents (Elt F) → (⟨S4194304x10, .f32⟩ : BufTy).Contents (Elt F) → (⟨S4194304x10, .f32⟩ : BufTy).Contents (Elt F)),
    nullary main_cst_1 (constant S_ .f32 0x00000000#32),
    binary main_v8 main_cst_1 main_v9 ((fun x v => Host.reduceAdd x v reducesTo_S4194304x10_S4194304_d1 h_S_) : (⟨S4194304x10, .f32⟩ : BufTy).Contents (Elt F) → (⟨S_, .f32⟩ : BufTy).Contents (Elt F) → (⟨S4194304, .f32⟩ : BufTy).Contents (Elt F)),
    nullary main_cst_2 (constant S_ .f32 0x00000000#32),
    binary main_v9 main_cst_2 main_v10 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_3 (constant S_ .f32 0x4A800000#32),
    binary main_v10 main_cst_3 main_v11 (Host.divf : (⟨S_, .f32⟩ : BufTy).Contents (Elt F) → (⟨S_, .f32⟩ : BufTy).Contents (Elt F) → (⟨S_, .f32⟩ : BufTy).Contents (Elt F)),
    unary main_v11 main_v12 (Host.negf : (⟨S_, .f32⟩ : BufTy).Contents (Elt F) → (⟨S_, .f32⟩ : BufTy).Contents (Elt F)) ]

set_option maxRecDepth 1024 in
/-- @main is that straight line: the callee's definition unfolded at its call and the record at its fields, both
    sides are one chain of steps once sequencing is reassociated. -/
theorem main_eq (c : Dev nD) : main (F := F) c = seq ops := by
  simp only [main, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., binary_bufs_sub ..,
    nullary_bufs_sub .., binary_bufs_sub .., nullary_bufs_sub .., binary_bufs_sub .., unary_bufs_sub ..⟩

end Line

/-! ## The result as one term of the two argument arrays -/

section Term

variable {F : FTy → Type} [FloatOps F]

/-- The row maxima: the fold of the maximum over the classes from −∞, then the maximum of that with −∞ once more. -/
def rowMaxTerm (X : (⟨S4194304x10, .f32⟩ : BufTy).Contents (Elt F)) : (⟨S4194304, .f32⟩ : BufTy).Contents (Elt F) :=
  maximumf (broadcastInDim S4194304 ![] bcast_S_S4194304 (constant S_ .f32 0xFF800000#32))
    (Host.reduce FloatOps.maximumf X (constant S_ .f32 0xFF800000#32) reducesTo_S4194304x10_S4194304_d1 h_S_)

/-- The scores shifted by their row maximum. -/
def shiftTerm (X : (⟨S4194304x10, .f32⟩ : BufTy).Contents (Elt F)) : (⟨S4194304x10, .f32⟩ : BufTy).Contents (Elt F) :=
  subf X (broadcastInDim S4194304x10 ![0, 1] bcast_S4194304x1_S4194304x10_0_1
    (broadcastInDim S4194304x1 ![0] bcast_S4194304_S4194304x1_0 (rowMaxTerm X)))

/-- The row sums of the exponentials of the shifted scores. -/
def sumExpTerm (X : (⟨S4194304x10, .f32⟩ : BufTy).Contents (Elt F)) : (⟨S4194304, .f32⟩ : BufTy).Contents (Elt F) :=
  Host.reduceAdd (Host.exp (shiftTerm X)) (constant S_ .f32 0x00000000#32) reducesTo_S4194304x10_S4194304_d1 h_S_

/-- The callee's result: the shifted scores minus the logarithm of the row sums of their exponentials. -/
def lsmTerm (X : (⟨S4194304x10, .f32⟩ : BufTy).Contents (Elt F)) : (⟨S4194304x10, .f32⟩ : BufTy).Contents (Elt F) :=
  subf (shiftTerm X) (broadcastInDim S4194304x10 ![0, 1] bcast_S4194304x1_S4194304x10_0_1
    (Host.log (broadcastInDim S4194304x1 ![0] bcast_S4194304_S4194304x1_0 (sumExpTerm X))))

/-- The labels after the negative-index normalisation: a negative label plus ten, any other label itself. -/
def normTerm (Tg : (⟨S4194304, .i32⟩ : BufTy).Contents (Elt F)) : (⟨S4194304, .i32⟩ : BufTy).Contents (Elt F) :=
  select (cmpi .slt Tg (broadcastInDim S4194304 ![] bcast_S_S4194304 (constantI S_ 32 0#32)))
    (addi Tg (broadcastInDim S4194304 ![] bcast_S_S4194304 (constantI S_ 32 10#32))) Tg

/-- The gathered table rows: row `normTerm Tg n` of the literal table, for each sample `n`. -/
def rowsTerm (Tg : (⟨S4194304, .i32⟩ : BufTy).Contents (Elt F)) : (⟨S4194304x10, .f32⟩ : BufTy).Contents (Elt F) :=
  Host.gather gather_S10x10_S4194304x1_S4194304x10_1_0_n_n_0_1_110
    (fun i => FloatOps.ofBits .f32 (lit0 (S10x10.rowMajor i)) : (⟨S10x10, .f32⟩ : BufTy).Contents (Elt F))
    (broadcastInDim S4194304x1 ![0] bcast_S4194304_S4194304x1_0 (normTerm (F := F) Tg) : (⟨S4194304x1, .i32⟩ : BufTy).Contents (Elt F))

/-- The per-sample terms: the table row against the log-probabilities, summed over the classes. -/
def perSampleTerm (X : (⟨S4194304x10, .f32⟩ : BufTy).Contents (Elt F)) (Tg : (⟨S4194304, .i32⟩ : BufTy).Contents (Elt F)) :
    (⟨S4194304, .f32⟩ : BufTy).Contents (Elt F) :=
  Host.reduceAdd (mulf (rowsTerm Tg) (lsmTerm X)) (constant S_ .f32 0x00000000#32) reducesTo_S4194304x10_S4194304_d1 h_S_

/-- The whole program's result: the per-sample terms summed over the samples, divided by the count, negated. -/
def refTerm (X : (⟨S4194304x10, .f32⟩ : BufTy).Contents (Elt F)) (Tg : (⟨S4194304, .i32⟩ : BufTy).Contents (Elt F)) :
    (⟨S_, .f32⟩ : BufTy).Contents (Elt F) :=
  Host.negf (Host.divf
    (Host.reduceAdd (perSampleTerm X Tg) (constant S_ .f32 0x00000000#32) reducesTo_S4194304_S_d0 h_S_)
    (constant S_ .f32 0x4A800000#32))

/-- Contents moved to a typed reference's buffer type and back are unchanged. -/
theorem ofBuf_toBuf {T : BufTy} {Val : EltTy → Type} (x : TRef sig T) (v : T.Contents Val) : x.ofBuf (x.toBuf v) = v := by
  obtain ⟨r, e, _, _⟩ := x
  subst e
  rfl

/-- At the scores' literal reference the transport from the buffer's type is the identity. -/
theorem arg0T_ofBuf {Val : EltTy → Type} (u : main_arg0.ty.Contents Val) : (arg0T.ofBuf u : (⟨S4194304x10, .f32⟩ : BufTy).Contents Val) = u := rfl

/-- At the callee's result reference the transport to the buffer's type is the identity. -/
theorem v0_toBuf {Val : EltTy → Type} (h1 : main_v0.ty = (⟨S4194304x10, .f32⟩ : BufTy)) (h2 : main_v0.space ≠ .host)
    (h3 : main_v0.isScoped = false) (b : (⟨S4194304x10, .f32⟩ : BufTy).Contents Val) :
    ((TRef.of main_v0 h1 h2 h3 : TRef sig ⟨S4194304x10, .f32⟩).toBuf b : main_v0.ty.Contents Val) = b := rfl

attribute [local irreducible] Host.reduce Host.reduceAdd Host.gather in
/-- The fold at the result buffer is `refTerm` of the two argument buffers: each operation's result read back at its own
    buffer, the typed references' transports removed, and what is left is the term itself. -/
theorem out_eq (V : Valuation τ sig (Elt F)) :
    after ops V (main_v12 : DevRef τ sig) = refTerm (V (main_arg0 : DevRef τ sig)) (V (main_arg1 : DevRef τ sig)) := by
  after_results_simp
  simp only [ofBuf_toBuf, arg0T_ofBuf, v0_toBuf, refTerm, perSampleTerm, rowsTerm, normTerm, lsmTerm, sumExpTerm, shiftTerm, rowMaxTerm]
  rfl

/-- No operation writes the scores' buffer. -/
theorem arg0_eq (V : Valuation τ sig (Elt F)) :
    after ops V (main_arg0 : DevRef τ sig) = V (main_arg0 : DevRef τ sig) := by
  after_results_simp

/-- No operation writes the labels' buffer. -/
theorem arg1_eq (V : Valuation τ sig (Elt F)) :
    after ops V (main_arg1 : DevRef τ sig) = V (main_arg1 : DevRef τ sig) := by
  after_results_simp

/-- On every device, from any memory with zero counters: every weakly fair execution of @main terminates with the result
    buffer at `refTerm` of the arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v12).trans (out_eq _), (h c main_arg0).trans (arg0_eq _),
      (h c main_arg1).trans (arg1_eq _)⟩)
    (run_seq scopedRefs_eq scopedSems_eq defs main (fun _ => ops) main_eq (fun _ => ops_sub) m ρ)

end Term

open Idealize.ShloMosaic.ValueIdx

/-! ## Layout operations read at an index -/

section Layout

variable {α : Type}

/-- A scalar broadcast to the samples reads the scalar at every sample. -/
theorem bcast_scalar_apply (v : S_.Idx → α) (i : S4194304.Idx) :
    broadcastInDim S4194304 ![] bcast_S_S4194304 v i = v ix0 :=
  broadcastInDim_apply _ _ v i ix0 fun a => a.elim0

/-- A per-sample vector laid out as a column reads, at (n, 0), the vector at n. -/
theorem bcast_col_apply (v : S4194304.Idx → α) (n : Fin 4194304) (z : Fin 1) :
    broadcastInDim S4194304x1 ![0] bcast_S4194304_S4194304x1_0 v (ix2 n z) = v (ix1 n) :=
  broadcastInDim_apply _ _ v (ix2 n z) (ix1 n) fun a => by
    obtain rfl : a = 0 := Subsingleton.elim _ _
    rw [if_neg (by decide)]
    rfl

/-- A column repeated along the classes reads, at (n, c), the column at (n, 0). -/
theorem bcast_row_apply (v : S4194304x1.Idx → α) (n : Fin 4194304) (c : Fin 10) :
    broadcastInDim S4194304x10 ![0, 1] bcast_S4194304x1_S4194304x10_0_1 v (ix2 n c) = v (ix2 n 0) :=
  broadcastInDim_apply _ _ v (ix2 n c) (ix2 n 0) fun a => by
    match a with
    | ⟨0, _⟩ => rw [if_neg (by decide +revert)]; rfl
    | ⟨1, _⟩ => rw [if_pos (by decide +revert)]; rfl

end Layout

/-! ## The reductions read at an index -/

/-- The scores' shape with its class axis dropped is the samples' shape. -/
theorem red_cls : S4194304x10.Reduces [1] S4194304 := by decide

/-- Sample n's index with class k inserted is (n, k). -/
theorem lift_cls (n : Fin 4194304) (k : Fin 10) : red_cls.lift (ix1 n) k = ix2 n k := by
  funext c
  refine Fin.ext ?_
  match c with
  | ⟨0, _⟩ => rfl
  | ⟨1, _⟩ => rfl

/-! ## The gather of table rows read at an index -/

section Gather

variable {α : Type}

/-- The start-indices position that result element j reads its one start-index component from: (j 0, 0). -/
theorem gather_siIdx (j : S4194304x10.Idx)
    (c : Fin gather_S10x10_S4194304x1_S4194304x10_1_0_n_n_0_1_110.startIndexMap.length) :
    gather_S10x10_S4194304x1_S4194304x10_1_0_n_n_0_1_110.siIdx j c = ix2 (j 0) (0 : Fin 1) := by
  funext b
  refine Fin.ext ?_
  match b with
  | ⟨0, _⟩ => rfl
  | ⟨1, _⟩ =>
    have hc : c.val < 1 := c.isLt
    show c.val = 0
    omega

/-- Result element (n, c) of the gather is the operand at row `idx[n, 0]`, read signed and clamped into [0, 9], and column c. -/
theorem gather_rows_apply (x : S10x10.Idx → α) (idx : IVec S4194304x1 32) (j : S4194304x10.Idx) :
    Host.gather gather_S10x10_S4194304x1_S4194304x10_1_0_n_n_0_1_110 x idx j
      = x (ix2 (n0 := 10) (n1 := 10) ⟨min (idx (ix2 (j 0) (0 : Fin 1))).toInt.toNat 9, by omega⟩ (j 1)) := by
  unfold Host.gather
  congr 1
  funext a
  refine Fin.ext ?_
  show gather_S10x10_S4194304x1_S4194304x10_1_0_n_n_0_1_110.start j idx a
      + gather_S10x10_S4194304x1_S4194304x10_1_0_n_n_0_1_110.batchCoord j a
      + gather_S10x10_S4194304x1_S4194304x10_1_0_n_n_0_1_110.offCoord j a = _
  rw [GatherDims.batchCoord_eq_zero _ _ _ List.not_mem_nil, Nat.add_zero]
  match a with
  | ⟨0, _⟩ =>
    -- the collapsed axis: the clamped start index, no offset
    rw [GatherDims.offCoord_eq_zero _ _ _ (fun h => ((GatherDims.mem_sKept _ _).mp h).1 (List.mem_singleton.mpr rfl)), Nat.add_zero]
    unfold GatherDims.start
    rw [dif_pos (show (⟨0, by decide⟩ : Fin S10x10.rank) ∈ gather_S10x10_S4194304x1_S4194304x10_1_0_n_n_0_1_110.startIndexMap
      from List.mem_singleton.mpr rfl), gather_siIdx]
    rfl
  | ⟨1, _⟩ =>
    -- the offset axis: start 0, the result's class coordinate
    unfold GatherDims.start
    rw [dif_neg (show (⟨1, by decide⟩ : Fin S10x10.rank) ∉ gather_S10x10_S4194304x1_S4194304x10_1_0_n_n_0_1_110.startIndexMap
      from by decide), Nat.zero_add]
    unfold GatherDims.offCoord
    rw [dif_pos (show (⟨1, by decide⟩ : Fin S10x10.rank) ∈ gather_S10x10_S4194304x1_S4194304x10_1_0_n_n_0_1_110.sKept
      from by decide)]
    rfl

end Gather

/-! ## The program's arrays read at an index, on the extended reals -/

section Value

/-- The word 0xFF800000 is −∞. -/
theorem ofBits_negInf : Ideal.ofBits .f32 0xFF800000#32 = ⊥ := by simp [Ideal.ofBits, Ideal.ieee]

/-- A host exponential at an index is the exponential of the element. -/
theorem hostExp_apply {s : Shape} (v : FVec Ideal s .f32) (i : s.Idx) : Host.exp v i = Ideal.exp (v i) := rfl
/-- A host logarithm at an index is the logarithm of the element. -/
theorem hostLog_apply {s : Shape} (v : FVec Ideal s .f32) (i : s.Idx) : Host.log v i = Ideal.log (v i) := rfl

/-- A host sum over the classes from the zero word, at sample n: the sum over the ten classes of the operand at (n, k). -/
theorem reduceAdd_cls_apply (v : FVec Ideal S4194304x10 .f32) (n : Fin 4194304) :
    Host.reduceAdd v (constant S_ .f32 0x00000000#32) reducesTo_S4194304x10_S4194304_d1 h_S_ (ix1 n)
      = ∑ k : Fin 10, v (ix2 n k) := by
  unfold Host.reduceAdd
  rw [Ideal.hostReduceAdd_def, Ideal.hostReduceAdd_single reducesTo_S4194304x10_S4194304_d1 red_cls, constant_apply,
    Ideal.ofBits_zero_f32, zero_add]
  exact Finset.sum_congr rfl fun k _ => congrArg v (lift_cls n k)

/-- The row maxima at sample n: the maximum of the ten scores of the row. -/
theorem rowMaxTerm_apply (X : FVec Ideal S4194304x10 .f32) (n : Fin 4194304) :
    rowMaxTerm (F := Ideal) X (ix1 n) = Cert.LossSpec.rowMax fun c => X (ix2 n c) := by
  unfold rowMaxTerm
  rw [maximumf_apply, bcast_scalar_apply, constant_apply, ofBits_negInf,
    Host.reduce_eq_fold_single FloatOps.maximumf X _ reducesTo_S4194304x10_S4194304_d1 red_cls h_S_, constant_apply,
    ofBits_negInf, max_eq_right bot_le]
  unfold Cert.LossSpec.rowMax
  congr 1
  funext k
  exact congrArg X (lift_cls n k)

/-- The shifted scores at (n, c). -/
theorem shiftTerm_apply (X : FVec Ideal S4194304x10 .f32) (n : Fin 4194304) (c : Fin 10) :
    shiftTerm (F := Ideal) X (ix2 n c) = X (ix2 n c) - Cert.LossSpec.rowMax fun k => X (ix2 n k) := by
  unfold shiftTerm
  rw [subf_apply, bcast_row_apply, bcast_col_apply, rowMaxTerm_apply]

/-- The row sums of the exponentials at sample n. -/
theorem sumExpTerm_apply (X : FVec Ideal S4194304x10 .f32) (n : Fin 4194304) :
    sumExpTerm (F := Ideal) X (ix1 n)
      = ∑ k : Fin 10, Ideal.exp (X (ix2 n k) - Cert.LossSpec.rowMax fun k => X (ix2 n k)) := by
  unfold sumExpTerm
  rw [reduceAdd_cls_apply]
  exact Finset.sum_congr rfl fun k _ => by rw [hostExp_apply, shiftTerm_apply]

/-- The callee's result at (n, c) is the log-probability of class c for row n. -/
theorem lsmTerm_apply (X : FVec Ideal S4194304x10 .f32) (n : Fin 4194304) (c : Fin 10) :
    lsmTerm (F := Ideal) X (ix2 n c) = Cert.LossSpec.logProb (fun k => X (ix2 n k)) c := by
  unfold lsmTerm Cert.LossSpec.logProb
  rw [subf_apply, shiftTerm_apply, bcast_row_apply, hostLog_apply, bcast_col_apply, sumExpTerm_apply]

end Value

/-! ## The labels, the table rows and the per-sample terms -/

section Loss

/-- The normalised label at sample n is the label itself when it is not negative. -/
theorem normTerm_apply (Tg : IVec S4194304 32) (n : Fin 4194304) (h : 0 ≤ (Tg (ix1 n)).toInt) :
    normTerm (F := Ideal) Tg (ix1 n) = Tg (ix1 n) := by
  unfold normTerm
  rw [select_apply]
  exact Cert.Lib.ClampIndex.norm_id (Tg (ix1 n)) 10#32 h

/-- The gather at (n, c): the operand at the clamped row of sample n's start index, column c. -/
theorem gather_rows_at {α : Type} (x : S10x10.Idx → α) (idx : IVec S4194304x1 32) (n : Fin 4194304) (c : Fin 10) :
    Host.gather gather_S10x10_S4194304x1_S4194304x10_1_0_n_n_0_1_110 x idx (ix2 n c)
      = x (ix2 (n0 := 10) (n1 := 10) ⟨min (idx (ix2 n (0 : Fin 1))).toInt.toNat 9, by omega⟩ c) :=
  gather_rows_apply x idx (ix2 n c)

/-- The same with the start index's value named. -/
theorem gather_rows_of_eq {α : Type} (x : S10x10.Idx → α) (idx : IVec S4194304x1 32) (n : Fin 4194304) (c : Fin 10)
    (t : BitVec 32) (ht : idx (ix2 n (0 : Fin 1)) = t) :
    Host.gather gather_S10x10_S4194304x1_S4194304x10_1_0_n_n_0_1_110 x idx (ix2 n c)
      = x (ix2 (n0 := 10) (n1 := 10) ⟨min t.toInt.toNat 9, by omega⟩ c) := by
  subst ht
  exact gather_rows_at x idx n c

/-- The gathered rows at (n, c): the table's entry at the label's row and column c. -/
theorem rowsTerm_apply (Tg : IVec S4194304 32) (n : Fin 4194304) (c : Fin 10) (h : 0 ≤ (Tg (ix1 n)).toInt) :
    rowsTerm (F := Ideal) Tg (ix2 n c) = Cert.Table.tab (Cert.LossSpec.labelRow (Tg (ix1 n))) c := by
  unfold rowsTerm
  rw [gather_rows_of_eq _ _ n c (Tg (ix1 n)) (by rw [bcast_col_apply, normTerm_apply Tg n h])]
  unfold Cert.Table.tab Cert.LossSpec.labelRow
  show Ideal.ofBits .f32 (lit0 _) = Ideal.ofBits .f32 (lit0 _)
  refine congrArg (fun q => Ideal.ofBits .f32 (lit0 q)) (Fin.ext ?_)
  rw [Shape.rowMajor_val_two]
  show min (Tg (ix1 n)).toInt.toNat 9 * 10 + c.val = 10 * min (Tg (ix1 n)).toInt.toNat 9 + c.val
  omega

/-- The per-sample term at sample n is the specification's. -/
theorem perSampleTerm_apply (X : FVec Ideal S4194304x10 .f32) (Tg : IVec S4194304 32) (n : Fin 4194304)
    (h : 0 ≤ (Tg (ix1 n)).toInt) :
    perSampleTerm (F := Ideal) X Tg (ix1 n) = Cert.LossSpec.lossAt Cert.Table.tab X Tg n.val := by
  unfold perSampleTerm
  rw [reduceAdd_cls_apply]
  unfold Cert.LossSpec.lossAt
  rw [dif_pos n.isLt]
  unfold Cert.LossSpec.sampleLoss
  exact Finset.sum_congr rfl fun c _ => by rw [mulf_apply, rowsTerm_apply Tg n c h, lsmTerm_apply]

/-- The samples' indices are the sample numbers … -/
def idxEquiv1 : S4194304.Idx ≃ Fin 4194304 where
  toFun i := i 0
  invFun n := ix1 n
  left_inv i := (eq_ix1 i).symm
  right_inv _ := rfl

/-- … so a sum over them is the sum over the sample numbers. -/
theorem sum_idx1 (f : S4194304.Idx → EReal) : ∑ i, f i = ∑ n : Fin 4194304, f (ix1 n) :=
  (Equiv.sum_comp idxEquiv1.symm f).symm

/-- A host negation at an index is the negation of the element. -/
theorem hostNegf_apply {s : Shape} (v : FVec Ideal s .f32) (i : s.Idx) : Host.negf v i = -(v i) := rfl
/-- A host division at an index is the division of the elements. -/
theorem hostDivf_apply {s : Shape} (a b : FVec Ideal s .f32) (i : s.Idx) : Host.divf a b i = Ideal.div (a i) (b i) := rfl

/-- THE VALUE: with no negative label the program's term is the loss of its two argument arrays. -/
theorem refTerm_eq (X : FVec Ideal S4194304x10 .f32) (Tg : IVec S4194304 32) (hT : ∀ i, 0 ≤ (Tg i).toInt) :
    refTerm (F := Ideal) X Tg = fun _ => Cert.LossSpec.meanLoss Cert.Table.tab X Tg := by
  funext j
  unfold refTerm Cert.LossSpec.meanLoss
  rw [hostNegf_apply, hostDivf_apply, constant_apply]
  unfold Host.reduceAdd
  rw [Ideal.hostReduceAdd_def, Ideal.hostReduceAdd_total reducesTo_S4194304_S_d0 (fun b => b.elim0), constant_apply,
    Ideal.ofBits_zero_f32, zero_add, sum_idx1]
  refine congrArg (fun s => -(Ideal.div s (Ideal.ofBits .f32 0x4A800000#32))) ?_
  exact Finset.sum_congr rfl fun n _ => perSampleTerm_apply X Tg n (hT (ix1 n))

end Loss

/-! ## The run at the loss -/

/-- With non-negative labels every weakly fair execution of the reference ends with its result at
    `−((Σ_n loss n) / N)` of the argument arrays, and the arguments unchanged. -/
theorem run (m : (ℓ : Loc nD τ sig) → Buf (Elt Ideal) ℓ) (ρ : Dev nD → PrngReg)
    (hT : ∀ (c : Dev nD) i, 0 ≤ ((m ((c.tc : Thread nD τ).loc main_arg1) : IVec S4194304 32) i).toInt) :
    θ_run (defs (F := Ideal)) (onTc (τ := τ) (main (F := Ideal))) ⟨m, fun _ => 0, ρ⟩ fun r => ∀ c : Dev nD,
      r.2.mem ((c.tc : Thread nD τ).loc main_v12)
          = (fun _ => Cert.LossSpec.meanLoss Cert.Table.tab (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run _ _ _).mono
    (fun _ h c => ⟨(h c).1.trans (refTerm_eq _ _ (hT c)), (h c).2.1, (h c).2.2⟩) (run_term m ρ)

end Cert.RefSide

end
-- ==== Proof.PreDecode.lean ====
/-
  What the precondition says of the two argument arrays: every score is a real number, every label is non-negative.
-/
import proofs.«429175_j9861244911667_4_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreDecode

open Idealize.ShloMosaic

/-- The rank-0 shape has exactly one index. -/
instance : Subsingleton Cert.Pre_finite_inputs.S_.Idx := ⟨fun a b => funext fun d => d.elim0⟩

/-- The word 0x7F800000 (sign 0, exponent all ones, fraction 0) denotes +∞. -/
theorem ofBits_inf : Ideal.ofBits .f32 0x7F800000#32 = (⊤ : EReal) := by
  simp [Ideal.ofBits, Ideal.ieee]

/-- An extended real whose absolute value `max x (−x)` is below +∞ is a real number: it is not +∞, and not −∞
    since then `−x` would be +∞. -/
theorem real_of_abs_lt_top (x : EReal) (h : max x (-x) < ⊤) : ∃ r : ℝ, x = (r : EReal) := by
  obtain ⟨h1, h2⟩ := max_lt_iff.1 h
  induction x using EReal.rec
  · rw [EReal.neg_bot] at h2
    exact absurd h2 (lt_irrefl _)
  · exact ⟨_, rfl⟩
  · exact absurd h1 (lt_irrefl _)

/-- The printed predicate all ones means: `|x| < +∞` at every score (so each is real), and `0 ≤ t` signed at every label. -/
theorem of_pre [Cert.Pre_finite_inputs.Facts] (X : FVec Ideal Cert.Pre_finite_inputs.S4194304x10 .f32) (Tg : IVec Cert.Pre_finite_inputs.S4194304 32)
    (h : Cert.Pre_finite_inputs.fn (F := Ideal) X Tg = fun _ => 1#1) :
    (∀ i, ∃ r : ℝ, X i = (r : EReal)) ∧ (∀ i, 0 ≤ (Tg i).toInt) := by
  -- the predicate at its one index is the conjunction of the two all-reductions
  have h0 := congrFun h ValueIdx.ix0
  dsimp only [Cert.Pre_finite_inputs.fn, andi] at h0
  obtain ⟨h1, h2⟩ := IntOp.andi_eq_one.1 h0
  constructor
  · intro i
    -- the first reduction is 1, so the comparison |x| < +∞ is 1 at every score
    have e := Host.reduce_andi_all _ _ _ _ _ h1 i
    dsimp only [cmpf, Host.absf, broadcastInDim, constant] at e
    change BitVec.ofBool (decide (max (X i) (-(X i)) < Ideal.ofBits .f32 0x7F800000#32)) = 1#1 at e
    rw [StableHlo.Predicate.ofBool_eq_one_iff, decide_eq_true_eq, ofBits_inf] at e
    exact real_of_abs_lt_top _ e
  · intro i
    -- the second reduction is 1, so the signed comparison t ≥ 0 is 1 at every label
    have e := Host.reduce_andi_all _ _ _ _ _ h2 i
    dsimp only [cmpi, broadcastInDim, constantI] at e
    change BitVec.ofBool ((0#32 : BitVec 32).sle (Tg i)) = 1#1 at e
    rw [StableHlo.Predicate.ofBool_eq_one_iff, BitVec.sle, decide_eq_true_eq] at e
    have hz : (0#32 : BitVec 32).toInt = 0 := by decide
    rw [hz] at e
    exact e

end Cert.PreDecode

end
-- ==== Proof.lean ====
/-
  An ordinal label-smoothing loss: the mean over 4194304 samples of  −Σ_c T[label, c] · log_softmax(scores)[c],
  with T a fixed 10×10 table of smoothed labels.

  The kernel transposes the scores, clips the labels into the ten classes, and runs a 2 × 32 grid over blocks of
  65536 samples: per block a max-shifted log-softmax along the class axis, the table row of each sample picked by a
  one-hot matrix product with the transposed table, the per-sample terms negated and summed into a one-element
  accumulator that restarts at the first block of each group of 32 and is written out after the last; the host adds
  the two group sums and divides by N. The reference takes the log-softmax row by row, gathers the table rows by
  label (negative labels counted from the end, then clamped), multiplies, sums over classes and samples, divides by N
  and negates.

  Under the precondition — every score finite, every label non-negative — both are one function of the two argument
  arrays (`LossSpec.meanLoss`): a non-negative label clipped to [0, 9] and the same label clamped by the gather select
  the same row; the one-hot product of a row-selecting 0/1 column is exactly that row of the table; and with real
  scores every per-sample term is real, so the blockwise sums of the negated terms regroup into minus the total and
  the division by N commutes with the sign. (For a label in [−10, −1] the two programs read different rows: the
  precondition's second conjunct is needed.)

  The three frames: the two kernel programs' are the generated frame certificates; the reference's is its run with the
  result dropped. The ideal pass rewrote nothing, so `preserves` is trivial.
-/
import proofs.«429175_j9861244911667_4_alg».proof.Defs
import proofs.«429175_j9861244911667_4_alg».proof.Proof.Gen.Kernel
import proofs.«429175_j9861244911667_4_alg».proof.Proof.Gen.Kernel.Frame
import proofs.«429175_j9861244911667_4_alg».proof.Proof.Gen.KernelIdeal
import proofs.«429175_j9861244911667_4_alg».proof.Proof.Gen.KernelIdeal.Frame
import proofs.«429175_j9861244911667_4_alg».proof.Proof.Gen.ReferenceIdeal
import proofs.«429175_j9861244911667_4_alg».proof.Proof.Gen.Pre_finite_inputs
import proofs.«429175_j9861244911667_4_alg».proof.Proof.KerValue
import proofs.«429175_j9861244911667_4_alg».proof.Proof.RefSide
import proofs.«429175_j9861244911667_4_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run (which needs the labels non-negative, read off the precondition) with the result dropped. -/
theorem frame_ri : Cert.frame_ReferenceIdeal := fun m ρ hpre =>
  (θ_run Cert.ReferenceIdeal.defs _ _).mono (fun _ h c => (h c).2)
    (Cert.RefSide.run m ρ fun c i => (Cert.PreDecode.of_pre _ _ (hpre c)).2 i)

theorem preserves : Cert.preserves_Kernel_KernelIdeal := trivial

/-- Both programs end at the loss of the argument arrays: the kernel's result by `kerResult_eq` (real scores,
    non-negative labels), the reference's by its run, from memories that agree on the arguments. -/
theorem algebraic : Cert.algebraic_KernelIdeal_ReferenceIdeal := by
  intro m ρ m' ρ' hpre hagree
  refine ⟨fun c => Cert.KerSide.kerResult m c, Cert.KerSide.ker_run m ρ, ?_⟩
  refine (θ_run Cert.ReferenceIdeal.defs _ _).mono (fun _ h c => ⟨(h c).1.trans ?_, (h c).2⟩)
    (Cert.RefSide.run m' ρ' fun c i => by rw [(hagree c).2]; exact (Cert.PreDecode.of_pre _ _ (hpre c)).2 i)
  rw [(hagree c).1, (hagree c).2]
  exact (Cert.KerSide.kerResult_eq m c (Cert.PreDecode.of_pre _ _ (hpre c)).1 (Cert.PreDecode.of_pre _ _ (hpre c)).2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
